-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x1024x1024 : Shape := ⟨4, ![1, 32, 1024, 1024]⟩
abbrev S1x1024x1024 : Shape := ⟨3, ![1, 1024, 1024]⟩
abbrev S_ : Shape := ⟨0, ![]⟩

class Facts : Prop where
  bcast_S_S1x32x1024x1024 : S_.BroadcastsInDim S1x32x1024x1024 (![] : Fin 0 → Fin S1x32x1024x1024.rank)
  reducesTo_S1x32x1024x1024_S_d0_1_2_3 : S1x32x1024x1024.ReducesTo [0, 1, 2, 3] S_
  h_S_ : 0 < S_.numel

variable [Facts]

def fn {F : FTy → Type} [FloatOps F] (main_arg0 : FVec F S1x32x1024x1024 .f32) (main_arg1 : FVec F S1x32x1024x1024 .f32) (main_arg2 : IVec S1x1024x1024 32) : IVec S_ 1 :=
  let main_v0 : FVec F S1x32x1024x1024 .f32 := Host.absf main_arg0
  let main_cst : FVec F S_ .f32 := constant S_ .f32 0x7F800000#32
  let main_v1 : FVec F S1x32x1024x1024 .f32 := broadcastInDim S1x32x1024x1024 ![] bcast_S_S1x32x1024x1024 main_cst
  let main_v2 : IVec S1x32x1024x1024 1 := cmpf .olt main_v0 main_v1
  let main_c : IVec S_ 1 := constantI S_ 1 1#1
  let main_v3 : IVec S_ 1 := (fun x v => Host.reduce IntOp.andi x v reducesTo_S1x32x1024x1024_S_d0_1_2_3 h_S_) main_v2 main_c
  let main_v4 : FVec F S1x32x1024x1024 .f32 := Host.absf main_arg1
  let main_cst_0 : FVec F S_ .f32 := constant S_ .f32 0x7F800000#32
  let main_v5 : FVec F S1x32x1024x1024 .f32 := broadcastInDim S1x32x1024x1024 ![] bcast_S_S1x32x1024x1024 main_cst_0
  let main_v6 : IVec S1x32x1024x1024 1 := cmpf .olt main_v4 main_v5
  let main_c_1 : IVec S_ 1 := constantI S_ 1 1#1
  let main_v7 : IVec S_ 1 := (fun x v => Host.reduce IntOp.andi x v reducesTo_S1x32x1024x1024_S_d0_1_2_3 h_S_) main_v6 main_c_1
  let main_v8 : IVec S_ 1 := andi main_v3 main_v7
  main_v8
-- ==== Kernel.lean ====
abbrev S1x32x1024x1024 : Shape := ⟨4, ![1, 32, 1024, 1024]⟩
abbrev S1x1024x1024 : Shape := ⟨3, ![1, 1024, 1024]⟩
abbrev S32x1048576 : Shape := ⟨2, ![32, 1048576]⟩
abbrev S1x1048576 : Shape := ⟨2, ![1, 1048576]⟩
abbrev S128x1 : Shape := ⟨2, ![128, 1]⟩
abbrev S1x1 : Shape := ⟨2, ![1, 1]⟩
abbrev S32x8192 : Shape := ⟨2, ![32, 8192]⟩
abbrev S1x8192 : Shape := ⟨2, ![1, 8192]⟩
abbrev S8192 : Shape := ⟨1, ![8192]⟩
abbrev S128x8192 : Shape := ⟨2, ![128, 8192]⟩
abbrev S128 : Shape := ⟨1, ![128]⟩
abbrev S1 : Shape := ⟨1, ![1]⟩
abbrev S_ : Shape := ⟨0, ![]⟩
abbrev S100x1 : Shape := ⟨2, ![100, 1]⟩
abbrev S100 : Shape := ⟨1, ![100]⟩

abbrev nBuf : Space → Nat
  | .hbm => 43
  | .vmem => 14
  | .smem => 0
  | _ => 0

abbrev bufTy : (tb : Table) → Fin (tcTables nBuf tb) → BufTy
  | .hbm, ⟨0, _⟩ => ⟨S1x32x1024x1024, .f32⟩
  | .hbm, ⟨1, _⟩ => ⟨S1x32x1024x1024, .f32⟩
  | .hbm, ⟨2, _⟩ => ⟨S1x1024x1024, .i32⟩
  | .hbm, ⟨3, _⟩ => ⟨S32x1048576, .f32⟩
  | .hbm, ⟨4, _⟩ => ⟨S32x1048576, .f32⟩
  | .hbm, ⟨5, _⟩ => ⟨S1x1048576, .i32⟩
  | .hbm, ⟨6, _⟩ => ⟨S128x1, .f32⟩
  | .hbm, ⟨7, _⟩ => ⟨S128x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S100x1, .f32⟩
  | .hbm, ⟨13, _⟩ => ⟨S100, .f32⟩
  | .hbm, ⟨14, _⟩ => ⟨S100, .f32⟩
  | .hbm, ⟨15, _⟩ => ⟨S100, .f32⟩
  | .hbm, ⟨16, _⟩ => ⟨S100x1, .f32⟩
  | .hbm, ⟨17, _⟩ => ⟨S100, .f32⟩
  | .hbm, ⟨18, _⟩ => ⟨S100, .f32⟩
  | .hbm, ⟨19, _⟩ => ⟨S100, .f32⟩
  | .hbm, ⟨20, _⟩ => ⟨S_, .f32⟩
  | .hbm, ⟨21, _⟩ => ⟨S100, .f32⟩
  | .hbm, ⟨22, _⟩ => ⟨S100, .i1⟩
  | .hbm, ⟨23, _⟩ => ⟨S_, .f32⟩
  | .hbm, ⟨24, _⟩ => ⟨S100, .f32⟩
  | .hbm, ⟨25, _⟩ => ⟨S100, .i1⟩
  | .hbm, ⟨26, _⟩ => ⟨S_, .f32⟩
  | .hbm, ⟨27, _⟩ => ⟨S_, .f32⟩
  | .hbm, ⟨28, _⟩ => ⟨S100, .f32⟩
  | .hbm, ⟨29, _⟩ => ⟨S100, .f32⟩
  | .hbm, ⟨30, _⟩ => ⟨S100, .f32⟩
  | .hbm, ⟨31, _⟩ => ⟨S100, .f32⟩
  | .hbm, ⟨32, _⟩ => ⟨S100, .f32⟩
  | .hbm, ⟨33, _⟩ => ⟨S_, .f32⟩
  | .hbm, ⟨34, _⟩ => ⟨S_, .f32⟩
  | .hbm, ⟨35, _⟩ => ⟨S100, .f32⟩
  | .hbm, ⟨36, _⟩ => ⟨S100, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S32x8192, .f32⟩
  | .local _ .vmem, ⟨1, _⟩ => ⟨S32x8192, .f32⟩
  | .local _ .vmem, ⟨2, _⟩ => ⟨S32x8192, .f32⟩
  | .local _ .vmem, ⟨3, _⟩ => ⟨S32x8192, .f32⟩
  | .local _ .vmem, ⟨4, _⟩ => ⟨S1x8192, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S1x1, .f32⟩
  | .local _ .vmem, ⟨9, _⟩ => ⟨S1x1, .f32⟩
  | .local _ .vmem, ⟨10, _⟩ => ⟨S128x1, .f32⟩
  | .local _ .vmem, ⟨11, _⟩ => ⟨S128x1, .f32⟩
  | .local _ .vmem, ⟨12, _⟩ => ⟨S1x1, .f32⟩
  | .local _ .vmem, ⟨13, _⟩ => ⟨S1x1, .f32⟩
  | _, _ => ⟨S1x32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S1x32x1024x1024_S32x1048576 : S1x32x1024x1024.ShapeCasts S32x1048576
  shapeCasts_S1x1024x1024_S1x1048576 : S1x1024x1024.ShapeCasts S1x1048576
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  reduces_S32x8192_S8192 : S32x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S128x1_d0_w32 : S128x1.Iotas .tc 32 [0]
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  natLt_1_32 : 1 < 32
  reduces_S1x8192_S1 : S1x8192.Reduces [1] S1
  shapeCasts_S1_S1x1 : S1.ShapeCasts S1x1
  shapeCasts_S1x1_S_ : S1x1.ShapeCasts S_
  slices_S128x1_S100x1_0_0 : S128x1.Slices ![0, 0] S100x1
  shapeCasts_S100x1_S100 : S100x1.ShapeCasts S100
  bcast_S_S100 : S_.BroadcastsInDim S100 (![] : Fin 0 → Fin S100.rank)
  reducesTo_S100_S_d0 : S100.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x1048576.size a
  hwx0_0 : ∀ i : grid0.Coords, EltTy.bits .f32 = 32 ∨ (Rect.block (s := S32x1048576) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8192.size a ≤ S32x1048576.size a
  hwx0_1 : ∀ i : grid0.Coords, EltTy.bits .f32 = 32 ∨ (Rect.block (s := S32x1048576) S32x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x1048576.size a
  hwx0_2 : ∀ i : grid0.Coords, EltTy.bits .i32 = 32 ∨ (Rect.block (s := S1x1048576) S1x8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_v0) S32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S128x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S128x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_3) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x32x1024x1024 : Shape := ⟨4, ![1, 32, 1024, 1024]⟩
abbrev S1x1024x1024 : Shape := ⟨3, ![1, 1024, 1024]⟩
abbrev S32x1048576 : Shape := ⟨2, ![32, 1048576]⟩
abbrev S1048576x32 : Shape := ⟨2, ![1048576, 32]⟩
abbrev S_ : Shape := ⟨0, ![]⟩
abbrev S1048576 : Shape := ⟨1, ![1048576]⟩
abbrev S100 : Shape := ⟨1, ![100]⟩
abbrev S1048576x1 : Shape := ⟨2, ![1048576, 1]⟩

abbrev nBuf : Space → Nat
  | .hbm => 121
  | .vmem => 0
  | .smem => 0
  | _ => 0

abbrev bufTy : (tb : Table) → Fin (tcTables nBuf tb) → BufTy
  | .hbm, ⟨0, _⟩ => ⟨S1x32x1024x1024, .f32⟩
  | .hbm, ⟨1, _⟩ => ⟨S1x32x1024x1024, .f32⟩
  | .hbm, ⟨2, _⟩ => ⟨S1x1024x1024, .i32⟩
  | .hbm, ⟨3, _⟩ => ⟨S32x1048576, .f32⟩
  | .hbm, ⟨4, _⟩ => ⟨S1048576x32, .f32⟩
  | .hbm, ⟨5, _⟩ => ⟨S32x1048576, .f32⟩
  | .hbm, ⟨6, _⟩ => ⟨S1048576x32, .f32⟩
  | .hbm, ⟨7, _⟩ => ⟨S1048576x32, .f32⟩
  | .hbm, ⟨8, _⟩ => ⟨S_, .f32⟩
  | .hbm, ⟨9, _⟩ => ⟨S1048576x32, .f32⟩
  | .hbm, ⟨10, _⟩ => ⟨S1048576x32, .f32⟩
  | .hbm, ⟨11, _⟩ => ⟨S1048576x32, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S1048576, .i32⟩
  | .hbm, ⟨16, _⟩ => ⟨S_, .i32⟩
  | .hbm, ⟨17, _⟩ => ⟨S1048576, .i32⟩
  | .hbm, ⟨18, _⟩ => ⟨S1048576, .i1⟩
  | .hbm, ⟨19, _⟩ => ⟨S1048576, .i1⟩
  | .hbm, ⟨20, _⟩ => ⟨S1048576, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S1048576, .i32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S_, .f32⟩
  | .hbm, ⟨29, _⟩ => ⟨S1048576, .f32⟩
  | .hbm, ⟨30, _⟩ => ⟨S1048576, .i1⟩
  | .hbm, ⟨31, _⟩ => ⟨S_, .f32⟩
  | .hbm, ⟨32, _⟩ => ⟨S1048576, .f32⟩
  | .hbm, ⟨33, _⟩ => ⟨S1048576, .i1⟩
  | .hbm, ⟨34, _⟩ => ⟨S1048576, .i1⟩
  | .hbm, ⟨35, _⟩ => ⟨S_, .f32⟩
  | .hbm, ⟨36, _⟩ => ⟨S1048576, .f32⟩
  | .hbm, ⟨37, _⟩ => ⟨S1048576, .f32⟩
  | .hbm, ⟨38, _⟩ => ⟨S1048576, .f32⟩
  | .hbm, ⟨39, _⟩ => ⟨S1048576, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1048576, .i32⟩
  | .hbm, ⟨44, _⟩ => ⟨S1048576, .i32⟩
  | .hbm, ⟨45, _⟩ => ⟨S_, .i32⟩
  | .hbm, ⟨46, _⟩ => ⟨S1048576, .i32⟩
  | .hbm, ⟨47, _⟩ => ⟨S1048576, .i32⟩
  | .hbm, ⟨48, _⟩ => ⟨S1048576, .i1⟩
  | .hbm, ⟨49, _⟩ => ⟨S1048576, .f32⟩
  | .hbm, ⟨50, _⟩ => ⟨S_, .f32⟩
  | .hbm, ⟨51, _⟩ => ⟨S100, .f32⟩
  | .hbm, ⟨52, _⟩ => ⟨S_, .i32⟩
  | .hbm, ⟨53, _⟩ => ⟨S1048576, .i32⟩
  | .hbm, ⟨54, _⟩ => ⟨S1048576, .i1⟩
  | .hbm, ⟨55, _⟩ => ⟨S_, .i32⟩
  | .hbm, ⟨56, _⟩ => ⟨S1048576, .i32⟩
  | .hbm, ⟨57, _⟩ => ⟨S1048576, .i32⟩
  | .hbm, ⟨58, _⟩ => ⟨S1048576, .i32⟩
  | .hbm, ⟨59, _⟩ => ⟨S1048576x1, .i32⟩
  | .hbm, ⟨60, _⟩ => ⟨S100, .f32⟩
  | .hbm, ⟨61, _⟩ => ⟨S100, .f32⟩
  | .hbm, ⟨62, _⟩ => ⟨S100, .f32⟩
  | .hbm, ⟨63, _⟩ => ⟨S_, .f32⟩
  | .hbm, ⟨64, _⟩ => ⟨S1048576, .f32⟩
  | .hbm, ⟨65, _⟩ => ⟨S1048576, .i1⟩
  | .hbm, ⟨66, _⟩ => ⟨S_, .f32⟩
  | .hbm, ⟨67, _⟩ => ⟨S1048576, .f32⟩
  | .hbm, ⟨68, _⟩ => ⟨S1048576, .i1⟩
  | .hbm, ⟨69, _⟩ => ⟨S1048576, .i1⟩
  | .hbm, ⟨70, _⟩ => ⟨S_, .f32⟩
  | .hbm, ⟨71, _⟩ => ⟨S1048576, .f32⟩
  | .hbm, ⟨72, _⟩ => ⟨S1048576, .f32⟩
  | .hbm, ⟨73, _⟩ => ⟨S1048576, .f32⟩
  | .hbm, ⟨74, _⟩ => ⟨S1048576, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S1048576, .i32⟩
  | .hbm, ⟨79, _⟩ => ⟨S1048576, .i32⟩
  | .hbm, ⟨80, _⟩ => ⟨S_, .i32⟩
  | .hbm, ⟨81, _⟩ => ⟨S1048576, .i32⟩
  | .hbm, ⟨82, _⟩ => ⟨S1048576, .i32⟩
  | .hbm, ⟨83, _⟩ => ⟨S1048576, .i1⟩
  | .hbm, ⟨84, _⟩ => ⟨S1048576, .f32⟩
  | .hbm, ⟨85, _⟩ => ⟨S_, .f32⟩
  | .hbm, ⟨86, _⟩ => ⟨S100, .f32⟩
  | .hbm, ⟨87, _⟩ => ⟨S_, .i32⟩
  | .hbm, ⟨88, _⟩ => ⟨S1048576, .i32⟩
  | .hbm, ⟨89, _⟩ => ⟨S1048576, .i1⟩
  | .hbm, ⟨90, _⟩ => ⟨S_, .i32⟩
  | .hbm, ⟨91, _⟩ => ⟨S1048576, .i32⟩
  | .hbm, ⟨92, _⟩ => ⟨S1048576, .i32⟩
  | .hbm, ⟨93, _⟩ => ⟨S1048576, .i32⟩
  | .hbm, ⟨94, _⟩ => ⟨S1048576x1, .i32⟩
  | .hbm, ⟨95, _⟩ => ⟨S100, .f32⟩
  | .hbm, ⟨96, _⟩ => ⟨S100, .f32⟩
  | .hbm, ⟨97, _⟩ => ⟨S100, .f32⟩
  | .hbm, ⟨98, _⟩ => ⟨S_, .f32⟩
  | .hbm, ⟨99, _⟩ => ⟨S100, .f32⟩
  | .hbm, ⟨100, _⟩ => ⟨S100, .i1⟩
  | .hbm, ⟨101, _⟩ => ⟨S_, .f32⟩
  | .hbm, ⟨102, _⟩ => ⟨S100, .f32⟩
  | .hbm, ⟨103, _⟩ => ⟨S100, .i1⟩
  | .hbm, ⟨104, _⟩ => ⟨S_, .f32⟩
  | .hbm, ⟨105, _⟩ => ⟨S_, .f32⟩
  | .hbm, ⟨106, _⟩ => ⟨S100, .f32⟩
  | .hbm, ⟨107, _⟩ => ⟨S100, .f32⟩
  | .hbm, ⟨108, _⟩ => ⟨S100, .f32⟩
  | .hbm, ⟨109, _⟩ => ⟨S100, .f32⟩
  | .hbm, ⟨110, _⟩ => ⟨S100, .f32⟩
  | .hbm, ⟨111, _⟩ => ⟨S_, .f32⟩
  | .hbm, ⟨112, _⟩ => ⟨S_, .f32⟩
  | .hbm, ⟨113, _⟩ => ⟨S100, .f32⟩
  | .hbm, ⟨114, _⟩ => ⟨S100, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S1x32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_c_7 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_14 : Ref sig .tc := ⟨.hbm, 75, rfl⟩
abbrev main_c_15 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_c_17 : Ref sig .tc := ⟨.hbm, 87, rfl⟩
abbrev main_v55 : Ref sig .tc := ⟨.hbm, 88, rfl⟩
abbrev main_v56 : Ref sig .tc := ⟨.hbm, 89, rfl⟩
abbrev main_c_18 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_19 : Ref sig .tc := ⟨.hbm, 98, rfl⟩
abbrev main_v64 : Ref sig .tc := ⟨.hbm, 99, rfl⟩
abbrev main_v65 : Ref sig .tc := ⟨.hbm, 100, rfl⟩
abbrev main_cst_20 : Ref sig .tc := ⟨.hbm, 101, rfl⟩
abbrev main_v66 : Ref sig .tc := ⟨.hbm, 102, rfl⟩
abbrev main_v67 : Ref sig .tc := ⟨.hbm, 103, rfl⟩
abbrev main_cst_21 : Ref sig .tc := ⟨.hbm, 104, rfl⟩
abbrev main_call2_v0 : Ref sig .tc := ⟨.hbm, 105, rfl⟩
abbrev main_call2_v1 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_22 : Ref sig .tc := ⟨.hbm, 111, rfl⟩
abbrev main_call3_v0 : Ref sig .tc := ⟨.hbm, 112, rfl⟩
abbrev main_call3_v1 : Ref sig .tc := ⟨.hbm, 113, rfl⟩
abbrev main_v72 : Ref sig .tc := ⟨.hbm, 114, rfl⟩
abbrev main_cst_23 : Ref sig .tc := ⟨.hbm, 115, rfl⟩
abbrev main_v73 : Ref sig .tc := ⟨.hbm, 116, rfl⟩
abbrev main_cst_24 : Ref sig .tc := ⟨.hbm, 117, rfl⟩
abbrev main_v74 : Ref sig .tc := ⟨.hbm, 118, rfl⟩
abbrev main_cst_25 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  shapeCasts_S1x32x1024x1024_S32x1048576 : S1x32x1024x1024.ShapeCasts S32x1048576
  transposes_S32x1048576_S1048576x32_1_0 : S32x1048576.Transposes [1, 0] S1048576x32
  bcast_S_S1048576x32 : S_.BroadcastsInDim S1048576x32 (![] : Fin 0 → Fin S1048576x32.rank)
  reducesTo_S1048576x32_S1048576_d1 : S1048576x32.ReducesTo [1] S1048576
  h_S_ : 0 < S_.numel
  shapeCasts_S1x1024x1024_S1048576 : S1x1024x1024.ShapeCasts S1048576
  bcast_S_S1048576 : S_.BroadcastsInDim S1048576 (![] : Fin 0 → Fin S1048576.rank)
  natLt_1_32 : 1 < 32
  reducesTo_S1048576_S_d0 : S1048576.ReducesTo [0] S_
  bcast_S_S100 : S_.BroadcastsInDim S100 (![] : Fin 0 → Fin S100.rank)
  bcast_S1048576_S1048576x1_0 : S1048576.BroadcastsInDim S1048576x1 (![0] : Fin 1 → Fin S1048576x1.rank)
  reducesTo_S100_S_d0 : S100.ReducesTo [0] S_
  scatter_S100_S1048576x1_S1048576_n_0_0_1_wf : ScatterDims.WF S100 S1048576x1 S1048576 [] [0] [0] 1

variable [Facts₀]

def scatter_S100_S1048576x1_S1048576_n_0_0_1 : ScatterDims S100 S1048576x1 S1048576 where
  updateWindowDims := []
  insertedWindowDims := [0]
  scatterDimsToOperandDims := [0]
  indexVectorDim := 1
  wf := scatter_S100_S1048576x1_S1048576_n_0_0_1_wf

class Facts : Prop extends Facts₀ where

variable [Facts]
-- ==== Proof.KPieces.lean ====
/-
  What one grid point leaves in the four accumulators, and the accumulators after every point.

  The body adds this tile's contribution to each of four scratch accumulators (two histogram columns, two counts) and
  copies the accumulators to the four outputs; at the first point it clears the accumulators first. So after point `n`
  every output holds what its accumulator holds, and the accumulators follow a chain: the first tile's contribution on
  top of zero, then one tile more at every point.
-/
import proofs.«122967_j32444182954404_1_alg».proof.Proof.FrameKernelIdeal
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Acc

open Cert.KernelIdeal Cert.KernelIdeal.Gen Cert.KernelIdeal.GenP

variable {F : FTy → Type} [FloatOps F]

variable (c : Dev nD) (i : grid0.Coords)
  (arg1 : Memref sig .tc .vmem S32x8192 .f32) (harg1 : arg1.IsWhole)
  (arg2 : Memref sig .tc .vmem S32x8192 .f32) (harg2 : arg2.IsWhole)
  (arg3 : Memref sig .tc .vmem S1x8192 .i32) (harg3 : arg3.IsWhole)
  (arg4 : Memref sig .tc .vmem S128x1 .f32) (harg4 : arg4.IsWhole)
  (arg5 : Memref sig .tc .vmem S128x1 .f32) (harg5 : arg5.IsWhole)
  (arg6 : Memref sig .tc .vmem S1x1 .f32) (harg6 : arg6.IsWhole)
  (arg7 : Memref sig .tc .vmem S1x1 .f32) (harg7 : arg7.IsWhole)
  (arg8 : Memref sig .tc .vmem S128x1 .f32) (harg8 : arg8.IsWhole)
  (arg9 : Memref sig .tc .vmem S128x1 .f32) (harg9 : arg9.IsWhole)
  (arg10 : Memref sig .tc .vmem S1x1 .f32) (harg10 : arg10.IsWhole)
  (arg11 : Memref sig .tc .vmem S1x1 .f32) (harg11 : arg11.IsWhole)
  (x0 x1 : Vec F S32x8192 .f32) (x2 : Vec F S1x8192 .i32) (xs0 xs1 : Vec F S128x1 .f32) (xs2 xs3 : Vec F S1x1 .f32)

theorem hz : (![0, 0] : Fin 2 → Nat) = fun _ => 0 := funext fun a => by fin_cases a <;> rfl

/-! ## One point's step, as a function of the tile's blocks and the accumulator before -/

/-- The zero-label histogram column after a point. -/
def hpNext (x0 x1 : Vec F S32x8192 .f32) (x2 : Vec F S1x8192 .i32) (p : Vec F S128x1 .f32) : Vec F S128x1 .f32 :=
  k0_pay16 (k0_pay11 x0 x1) (k0_pay12 x0 x1 x2) p
/-- The nonzero-label histogram column after a point. -/
def hnNext (x0 x1 : Vec F S32x8192 .f32) (x2 : Vec F S1x8192 .i32) (p : Vec F S128x1 .f32) : Vec F S128x1 .f32 :=
  k0_pay17 (k0_pay11 x0 x1) (k0_pay13 x0 x1 x2) (Scalar.ofBits .f32 0x3F800000#32) (Scalar.ofBits .f32 0x00000000#32) p
/-- The zero-label count after a point. -/
def pcNext (x2 : Vec F S1x8192 .i32) (p : Vec F S1x1 .f32) : Vec F S1x1 .f32 := k0_pay1 (k0_pay18 (k0_pay8 x2) p)
/-- The nonzero-label count after a point. -/
def ncNext (x2 : Vec F S1x8192 .i32) (p : Vec F S1x1 .f32) : Vec F S1x1 .f32 := k0_pay2 (k0_pay15 (k0_pay9 x2)) p

/-! ## A later point: each accumulator is stepped from what the point before left, each output copies its accumulator -/

theorem out0_B_3_eq (hc0 : ¬cond0_0 i) : out0_B_3 c i arg1 harg1 arg2 harg2 arg3 harg3 arg4 harg4 arg5 harg5 arg6 harg6 arg7 harg7 arg8 harg8 arg9 harg9 arg10 harg10 arg11 harg11 hc0 x0 x1 x2 xs0 xs1 xs2 xs3 = hpNext x0 x1 x2 xs0 := by
  unfold out0_B_3 hpNext
  rw [View.read_writes_eq_canon _ _ _ (cover0_B_3 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem out0_B_4_eq (hc0 : ¬cond0_0 i) : out0_B_4 c i arg1 harg1 arg2 harg2 arg3 harg3 arg4 harg4 arg5 harg5 arg6 harg6 arg7 harg7 arg8 harg8 arg9 harg9 arg10 harg10 arg11 harg11 hc0 x0 x1 x2 xs0 xs1 xs2 xs3 = hnNext x0 x1 x2 xs1 := by
  unfold out0_B_4 hnNext
  rw [View.read_writes_eq_canon _ _ _ (cover0_B_4 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem out0_B_5_eq (hc0 : ¬cond0_0 i) : out0_B_5 c i arg1 harg1 arg2 harg2 arg3 harg3 arg4 harg4 arg5 harg5 arg6 harg6 arg7 harg7 arg8 harg8 arg9 harg9 arg10 harg10 arg11 harg11 hc0 x0 x1 x2 xs0 xs1 xs2 xs3 = pcNext x2 xs2 := by
  unfold out0_B_5 pcNext
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem out0_B_6_eq (hc0 : ¬cond0_0 i) : out0_B_6 c i arg1 harg1 arg2 harg2 arg3 harg3 arg4 harg4 arg5 harg5 arg6 harg6 arg7 harg7 arg8 harg8 arg9 harg9 arg10 harg10 arg11 harg11 hc0 x0 x1 x2 xs0 xs1 xs2 xs3 = ncNext x2 xs3 := by
  unfold out0_B_6 ncNext
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_B_0_eq (hc0 : ¬cond0_0 i) : sout0_B_0 c i arg1 harg1 arg2 harg2 arg3 harg3 arg4 harg4 arg5 harg5 arg6 harg6 arg7 harg7 arg8 harg8 arg9 harg9 arg10 harg10 arg11 harg11 hc0 x0 x1 x2 xs0 xs1 xs2 xs3 = hpNext x0 x1 x2 xs0 := by
  unfold sout0_B_0 hpNext
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_B_1_eq (hc0 : ¬cond0_0 i) : sout0_B_1 c i arg1 harg1 arg2 harg2 arg3 harg3 arg4 harg4 arg5 harg5 arg6 harg6 arg7 harg7 arg8 harg8 arg9 harg9 arg10 harg10 arg11 harg11 hc0 x0 x1 x2 xs0 xs1 xs2 xs3 = hnNext x0 x1 x2 xs1 := by
  unfold sout0_B_1 hnNext
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_B_2_eq (hc0 : ¬cond0_0 i) : sout0_B_2 c i arg1 harg1 arg2 harg2 arg3 harg3 arg4 harg4 arg5 harg5 arg6 harg6 arg7 harg7 arg8 harg8 arg9 harg9 arg10 harg10 arg11 harg11 hc0 x0 x1 x2 xs0 xs1 xs2 xs3 = pcNext x2 xs2 := by
  unfold sout0_B_2 pcNext
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_B_3_eq (hc0 : ¬cond0_0 i) : sout0_B_3 c i arg1 harg1 arg2 harg2 arg3 harg3 arg4 harg4 arg5 harg5 arg6 harg6 arg7 harg7 arg8 harg8 arg9 harg9 arg10 harg10 arg11 harg11 hc0 x0 x1 x2 xs0 xs1 xs2 xs3 = ncNext x2 xs3 := by
  unfold sout0_B_3 ncNext
  rw [View.read_writes_eq_canon _ _ _ (scover0_B_3 c i arg1 harg1 arg2 harg2 arg3 harg3 arg4 harg4 arg5 harg5 arg6 harg6 arg7 harg7 arg8 harg8 arg9 harg9 arg10 harg10 arg11 harg11 hc0 x0 x1 x2 xs0 xs1 xs2 xs3)]
  unfold kernelRun0_B
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

/-! ## The first point: the same over the cleared accumulators -/

theorem out0_A_3_eq (hc0 : cond0_0 i) : out0_A_3 c i arg1 harg1 arg2 harg2 arg3 harg3 arg4 harg4 arg5 harg5 arg6 harg6 arg7 harg7 arg8 harg8 arg9 harg9 arg10 harg10 arg11 harg11 hc0 x0 x1 x2 = hpNext x0 x1 x2 k0_pay3 := by
  unfold out0_A_3 hpNext
  rw [View.read_writes_eq_canon _ _ _ (cover0_A_3 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem out0_A_4_eq (hc0 : cond0_0 i) : out0_A_4 c i arg1 harg1 arg2 harg2 arg3 harg3 arg4 harg4 arg5 harg5 arg6 harg6 arg7 harg7 arg8 harg8 arg9 harg9 arg10 harg10 arg11 harg11 hc0 x0 x1 x2 = hnNext x0 x1 x2 k0_pay4 := by
  unfold out0_A_4 hnNext
  rw [View.read_writes_eq_canon _ _ _ (cover0_A_4 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem out0_A_5_eq (hc0 : cond0_0 i) : out0_A_5 c i arg1 harg1 arg2 harg2 arg3 harg3 arg4 harg4 arg5 harg5 arg6 harg6 arg7 harg7 arg8 harg8 arg9 harg9 arg10 harg10 arg11 harg11 hc0 x0 x1 x2 = pcNext x2 k0_pay5 := by
  unfold out0_A_5 pcNext
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem out0_A_6_eq (hc0 : cond0_0 i) : out0_A_6 c i arg1 harg1 arg2 harg2 arg3 harg3 arg4 harg4 arg5 harg5 arg6 harg6 arg7 harg7 arg8 harg8 arg9 harg9 arg10 harg10 arg11 harg11 hc0 x0 x1 x2 = ncNext x2 k0_pay6 := by
  unfold out0_A_6 ncNext
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_A_0_eq (hc0 : cond0_0 i) : sout0_A_0 c i arg1 harg1 arg2 harg2 arg3 harg3 arg4 harg4 arg5 harg5 arg6 harg6 arg7 harg7 arg8 harg8 arg9 harg9 arg10 harg10 arg11 harg11 hc0 x0 x1 x2 = hpNext x0 x1 x2 k0_pay3 := by
  unfold sout0_A_0 hpNext
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_A_1_eq (hc0 : cond0_0 i) : sout0_A_1 c i arg1 harg1 arg2 harg2 arg3 harg3 arg4 harg4 arg5 harg5 arg6 harg6 arg7 harg7 arg8 harg8 arg9 harg9 arg10 harg10 arg11 harg11 hc0 x0 x1 x2 = hnNext x0 x1 x2 k0_pay4 := by
  unfold sout0_A_1 hnNext
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S128x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_A_2_eq (hc0 : cond0_0 i) : sout0_A_2 c i arg1 harg1 arg2 harg2 arg3 harg3 arg4 harg4 arg5 harg5 arg6 harg6 arg7 harg7 arg8 harg8 arg9 harg9 arg10 harg10 arg11 harg11 hc0 x0 x1 x2 = pcNext x2 k0_pay5 := by
  unfold sout0_A_2 pcNext
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

theorem sout0_A_3_eq (hc0 : cond0_0 i) : sout0_A_3 c i arg1 harg1 arg2 harg2 arg3 harg3 arg4 harg4 arg5 harg5 arg6 harg6 arg7 harg7 arg8 harg8 arg9 harg9 arg10 harg10 arg11 harg11 hc0 x0 x1 x2 = ncNext x2 k0_pay6 := by
  unfold sout0_A_3 ncNext
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 x0 x1 x2)]
  unfold kernelRun0_A
  dsimp only
  sl_unfold_words
  first
    | rw [View.canon_cons_unit_zero (S := S1x1) hz]
    | rw [View.canon_unit_zero hz]
  simp only [View.readAt_eq_ld, harg1.read_unread, harg2.read_unread, harg3.read_unread, harg8.read_unread, harg9.read_unread, harg10.read_unread, harg11.read_unread,
    View.ld_unit_zero (S := S32x8192) hz, View.ld_unit_zero (S := S1x8192) hz, View.ld_unit_zero (S := S128x1) hz, View.ld_unit_zero (S := S1x1) hz,
    View.readCov_unit_zero (S := S128x1) _ hz, View.readCov_unit_zero (S := S1x1) _ hz]
  all_goals exact View.readCov_cons_toLoadRect _ _ _ _

end Cert.KernelIdeal.Acc

end
-- ==== Proof.KChain.lean ====
/-
  The four accumulators after every grid point, and that the generated point-by-point contents are this chain.

  After point 0 each accumulator holds the first tile's step over the cleared value; after point `n + 1` the step of tile
  `n + 1` over what point `n` left. Every output holds what its accumulator holds. By induction on the point.
-/
import proofs.«122967_j32444182954404_1_alg».proof.Proof.KPieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.GenP

variable {F : FTy → Type} [FloatOps F]
variable (m : (ℓ : Loc nD τ sig) → Buf (Elt F) ℓ)

/-- Tile `t`'s two feature blocks and its label block, at their literal types. -/
abbrev f0 (c : Dev nD) (t : Fin cfg0.N) : Vec F S32x8192 .f32 := iblk m c 0 t
abbrev f1 (c : Dev nD) (t : Fin cfg0.N) : Vec F S32x8192 .f32 := iblk m c 1 t
abbrev lb (c : Dev nD) (t : Fin cfg0.N) : Vec F S1x8192 .i32 := iblk m c 2 t

/-- The accumulators (zero-label column, nonzero-label column, zero-label count, nonzero-label count) after point `n`. -/
def acc (c : Dev nD) : (n : ℕ) → n < cfg0.N → Vec F S128x1 .f32 × Vec F S128x1 .f32 × Vec F S1x1 .f32 × Vec F S1x1 .f32
  | 0, h => (hpNext (f0 m c ⟨0, h⟩) (f1 m c ⟨0, h⟩) (lb m c ⟨0, h⟩) k0_pay3, hnNext (f0 m c ⟨0, h⟩) (f1 m c ⟨0, h⟩) (lb m c ⟨0, h⟩) k0_pay4,
      pcNext (lb m c ⟨0, h⟩) k0_pay5, ncNext (lb m c ⟨0, h⟩) k0_pay6)
  | n + 1, h => (hpNext (f0 m c ⟨n + 1, h⟩) (f1 m c ⟨n + 1, h⟩) (lb m c ⟨n + 1, h⟩) (acc c n (Nat.lt_of_succ_lt h)).1,
      hnNext (f0 m c ⟨n + 1, h⟩) (f1 m c ⟨n + 1, h⟩) (lb m c ⟨n + 1, h⟩) (acc c n (Nat.lt_of_succ_lt h)).2.1,
      pcNext (lb m c ⟨n + 1, h⟩) (acc c n (Nat.lt_of_succ_lt h)).2.2.1, ncNext (lb m c ⟨n + 1, h⟩) (acc c n (Nat.lt_of_succ_lt h)).2.2.2)

/-- The outputs copy the accumulators: the eight tracked buffers from the four values. -/
abbrev both {A B C D : Type} (a : A × B × C × D) : A × B × C × D × A × B × C × D :=
  (a.1, a.2.1, a.2.2.1, a.2.2.2, a.1, a.2.1, a.2.2.1, a.2.2.2)

/-- What the eight tracked buffers hold after point `n` is the chain's value, outputs and accumulators alike. -/
theorem outsAt_eq (c : Dev nD) : ∀ (n : ℕ) (h : n < cfg0.N), outsAt0 m c n h = both (acc m c n h)
  | 0, h => by
    rw [outsAt0_A m c ⟨0, h⟩ rfl]
    rw [out0_A_3_eq, out0_A_4_eq, out0_A_5_eq, out0_A_6_eq, sout0_A_0_eq, sout0_A_1_eq, sout0_A_2_eq, sout0_A_3_eq]
    rfl
  | n + 1, h => by
    have hN : cfg0.N = 128 := N_0
    have hB : ¬(⟨n + 1, h⟩ : Fin cfg0.N).val % 128 = 0 := by dsimp only; omega
    have ih : outsAt0 m c ((⟨n + 1, h⟩ : Fin cfg0.N).val - 1) (Nat.lt_of_le_of_lt (Nat.sub_le _ _) (⟨n + 1, h⟩ : Fin cfg0.N).isLt)
        = both (acc m c n (Nat.lt_of_succ_lt h)) := outsAt_eq c n (Nat.lt_of_succ_lt h)
    rw [outsAt0_B m c ⟨n + 1, h⟩ hB]
    rw [out0_B_3_eq, out0_B_4_eq, out0_B_5_eq, out0_B_6_eq, sout0_B_0_eq, sout0_B_1_eq, sout0_B_2_eq, sout0_B_3_eq, ih]
    rfl

end Cert.KernelIdeal.Acc

end
-- ==== Proof.KFinal.lean ====
/-
  After the last grid point: each output array holds its accumulator's last value.

  Every output window's block is block (0, 0) at every point, so the pipeline writes it back once, after the last point
  (point 127), and that one block is the whole array.
-/
import proofs.«122967_j32444182954404_1_alg».proof.Proof.KChain

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.GenP

variable {F : FTy → Type} [FloatOps F]
variable (m : (ℓ : Loc nD τ sig) → Buf (Elt F) ℓ)

/-- The last grid point. -/
abbrev tLast : Fin cfg0.N := ⟨127, by rw [show cfg0.N = 128 from N_0]; decide⟩

/-- The four accumulators after the last point. -/
abbrev last (c : Dev nD) := acc m c 127 (by rw [show cfg0.N = 128 from N_0]; decide)

/-- The one write-back of output window 3, at the last point, writes the accumulator's last value: block (0, 0) of the
    array read through zero offsets is the array. -/
theorem flushed3 (c : Dev nD) (t : Fin cfg0.N) (hf : (cfg0.win 3).flush t = true) :
    (dats m 0 c).flushed 3 t = ((cfg0.win 3).blk t).view.read (Elt F) (last m c).1 := by
  have hN : cfg0.N = 128 := N_0
  have h127 : t.val = 127 := by have := (flush0_3 t).mp hf; have := t.isLt; omega
  obtain rfl : t = tLast := Fin.ext h127
  show (cfg0.win 3).cut (grid0.coords tLast) ((dats m 0 c).after 3 tLast) = _
  rw [after0_3, outsAt_eq]
  have hz' : (fun a => win0_3.index tLast a * main_v3_0.ty.shape.size a) = fun _ => 0 := funext fun a => by fin_cases a <;> decide
  exact (Memref.read_access_unit_zero (Elt F) main_v3_0 hz' (fun a => by rw [congrFun hz' a]; simp) (last m c).1).symm

/-- So output array 3 ends holding it: the last point's block covers the array. -/
theorem final3 (c : Dev nD) : (dats m 0 c).arrAt 3 cfg0.N = (last m c).1 :=
  (dats m 0 c).arrAt_eq_of_cover 3 (last m c).1 (flushed3 m c) fun i =>
    ⟨tLast, (flush0_3 tLast).mpr rfl, by
      show i ∈ ((View.whole main_v3_0).slice (win0_3.rect tLast)).set
      rw [View.set_slice_whole, Rect.mem_set_unit]
      intro a
      have h0 : (i 0 : Nat) < 128 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 128 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The one write-back of output window 4, at the last point, writes the accumulator's last value: block (0, 0) of the
    array read through zero offsets is the array. -/
theorem flushed4 (c : Dev nD) (t : Fin cfg0.N) (hf : (cfg0.win 4).flush t = true) :
    (dats m 0 c).flushed 4 t = ((cfg0.win 4).blk t).view.read (Elt F) (last m c).2.1 := by
  have hN : cfg0.N = 128 := N_0
  have h127 : t.val = 127 := by have := (flush0_4 t).mp hf; have := t.isLt; omega
  obtain rfl : t = tLast := Fin.ext h127
  show (cfg0.win 4).cut (grid0.coords tLast) ((dats m 0 c).after 4 tLast) = _
  rw [after0_4, outsAt_eq]
  have hz' : (fun a => win0_4.index tLast a * main_v3_1.ty.shape.size a) = fun _ => 0 := funext fun a => by fin_cases a <;> decide
  exact (Memref.read_access_unit_zero (Elt F) main_v3_1 hz' (fun a => by rw [congrFun hz' a]; simp) (last m c).2.1).symm

/-- So output array 4 ends holding it: the last point's block covers the array. -/
theorem final4 (c : Dev nD) : (dats m 0 c).arrAt 4 cfg0.N = (last m c).2.1 :=
  (dats m 0 c).arrAt_eq_of_cover 4 (last m c).2.1 (flushed4 m c) fun i =>
    ⟨tLast, (flush0_4 tLast).mpr rfl, by
      show i ∈ ((View.whole main_v3_1).slice (win0_4.rect tLast)).set
      rw [View.set_slice_whole, Rect.mem_set_unit]
      intro a
      have h0 : (i 0 : Nat) < 128 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 128 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The one write-back of output window 5, at the last point, writes the accumulator's last value: block (0, 0) of the
    array read through zero offsets is the array. -/
theorem flushed5 (c : Dev nD) (t : Fin cfg0.N) (hf : (cfg0.win 5).flush t = true) :
    (dats m 0 c).flushed 5 t = ((cfg0.win 5).blk t).view.read (Elt F) (last m c).2.2.1 := by
  have hN : cfg0.N = 128 := N_0
  have h127 : t.val = 127 := by have := (flush0_5 t).mp hf; have := t.isLt; omega
  obtain rfl : t = tLast := Fin.ext h127
  show (cfg0.win 5).cut (grid0.coords tLast) ((dats m 0 c).after 5 tLast) = _
  rw [after0_5, outsAt_eq]
  have hz' : (fun a => win0_5.index tLast a * main_v3_2.ty.shape.size a) = fun _ => 0 := funext fun a => by fin_cases a <;> decide
  exact (Memref.read_access_unit_zero (Elt F) main_v3_2 hz' (fun a => by rw [congrFun hz' a]; simp) (last m c).2.2.1).symm

/-- So output array 5 ends holding it: the last point's block covers the array. -/
theorem final5 (c : Dev nD) : (dats m 0 c).arrAt 5 cfg0.N = (last m c).2.2.1 :=
  (dats m 0 c).arrAt_eq_of_cover 5 (last m c).2.2.1 (flushed5 m c) fun i =>
    ⟨tLast, (flush0_5 tLast).mpr rfl, by
      show i ∈ ((View.whole main_v3_2).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- The one write-back of output window 6, at the last point, writes the accumulator's last value: block (0, 0) of the
    array read through zero offsets is the array. -/
theorem flushed6 (c : Dev nD) (t : Fin cfg0.N) (hf : (cfg0.win 6).flush t = true) :
    (dats m 0 c).flushed 6 t = ((cfg0.win 6).blk t).view.read (Elt F) (last m c).2.2.2 := by
  have hN : cfg0.N = 128 := N_0
  have h127 : t.val = 127 := by have := (flush0_6 t).mp hf; have := t.isLt; omega
  obtain rfl : t = tLast := Fin.ext h127
  show (cfg0.win 6).cut (grid0.coords tLast) ((dats m 0 c).after 6 tLast) = _
  rw [after0_6, outsAt_eq]
  have hz' : (fun a => win0_6.index tLast a * main_v3_3.ty.shape.size a) = fun _ => 0 := funext fun a => by fin_cases a <;> decide
  exact (Memref.read_access_unit_zero (Elt F) main_v3_3 hz' (fun a => by rw [congrFun hz' a]; simp) (last m c).2.2.2).symm

/-- So output array 6 ends holding it: the last point's block covers the array. -/
theorem final6 (c : Dev nD) : (dats m 0 c).arrAt 6 cfg0.N = (last m c).2.2.2 :=
  (dats m 0 c).arrAt_eq_of_cover 6 (last m c).2.2.2 (flushed6 m c) fun i =>
    ⟨tLast, (flush0_6 tLast).mpr rfl, by
      show i ∈ ((View.whole main_v3_3).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

end Cert.KernelIdeal.Acc

end
-- ==== Proof.Spec.lean ====
/-
  The number both programs compute, stated once over the flattened inputs.

  A pixel `p` of the 1024 × 1024 image carries two 32-channel feature columns and a label word. Its distance is the
  Euclidean norm of the channelwise difference shifted by a fixed small literal; its bin is the floor of a hundred times
  the distance, clamped to `[0, 99]`; it counts in a histogram when its label selects it and the distance lies in
  `[0, 1]`. The two histograms (label zero, label nonzero) are normalised by the two label counts, and the answer is
  one plus the mean over the hundred bins of `q · (log q − r)` where `q > 0` (`q` the nonzero-label histogram, `r` the
  zero-label one).

  Everything is written with the scalar operations at the ideal values, so that a program's vector operation read at an
  index is literally one of these terms.
-/
import Idealize.ShloMosaic.PureOps.Ideal
import Idealize.ShloMosaic.PureOps.Ideal.Laws
import Idealize.ShloMosaic.PureOps.Vector
import Idealize.ShloMosaic.PureOps.Contract
import Idealize.ShloMosaic.Lib.ValueIdx

noncomputable section

namespace Cert.Hist

open Idealize.ShloMosaic Idealize.ShloMosaic.ValueIdx

/-- The number of pixels. -/
abbrev NPix : Nat := 1048576

/-- Features flattened to channel × pixel. -/
abbrev SFeat : Shape := ⟨2, ![32, 1048576]⟩
/-- The hundred bins. -/
abbrev SBins : Shape := ⟨1, ![100]⟩
/-- A single number. -/
abbrev SNum : Shape := ⟨0, ![]⟩

/-- The shifted difference of two channel values. -/
def diff (u v : Ideal .f32) : Ideal .f32 :=
  FloatOps.addf (FloatOps.subf u v) (FloatOps.ofBits .f32 0x358637BD#32)

/-- The distance of two 32-channel columns: the root of the sum over the channels of the squared shifted differences. -/
def distCol (a b : Fin 32 → Ideal .f32) : Ideal .f32 :=
  FloatOps.sqrt (∑ c : Fin 32, FloatOps.mulf (diff (a c) (b c)) (diff (a c) (b c)))

/-- The distance of pixel `p`: that of its two feature columns. -/
def dist (X0 X1 : FVec Ideal SFeat .f32) (p : Fin NPix) : Ideal .f32 :=
  distCol (fun c => X0 (ix2 c p)) (fun c => X1 (ix2 c p))

/-- Whether a distance lies in `[0, 1]`, as a bit. -/
def inRange (d : Ideal .f32) : BitVec 1 :=
  IntOp.andi (FloatOps.cmpf .oge d (FloatOps.ofBits .f32 0x00000000#32)) (FloatOps.cmpf .ole d (FloatOps.ofBits .f32 0x3F800000#32))

/-- The bin of a distance: `⌊100 d⌋` as a signed word, clamped to `[0, 99]`. -/
def binOf (d : Ideal .f32) : BitVec 32 :=
  IntOp.minsi 99#32 (IntOp.maxsi 0#32 (FloatOps.fptosi 32 (FloatOps.floor (FloatOps.mulf d (FloatOps.ofBits .f32 0x42C80000#32)))))

/-- The label is zero. -/
def isPos (w : BitVec 32) : BitVec 1 := IntOp.cmpi .eq w 0#32
/-- The label is not zero. -/
def isNeg (w : BitVec 32) : BitVec 1 := IntOp.xori (isPos w) 1#1

/-- What a pixel adds to its bin: one when its label bit is set and its distance is in range, else zero. -/
def weight (sel : BitVec 1) (d : Ideal .f32) : Ideal .f32 :=
  Scalar.select (IntOp.andi sel (inRange d)) (FloatOps.ofBits .f32 0x3F800000#32) (FloatOps.ofBits .f32 0x00000000#32)

/-- Bin `b` of the histogram of the pixels a label test selects. -/
def hist (X0 X1 : FVec Ideal SFeat .f32) (g : Fin NPix → BitVec 32) (sel : BitVec 32 → BitVec 1) (b : Fin 100) : Ideal .f32 :=
  ∑ p : Fin NPix, if binOf (dist X0 X1 p) = BitVec.ofNat 32 b.val then weight (sel (g p)) (dist X0 X1 p) else 0

/-- How many pixels a label test selects. -/
def count (g : Fin NPix → BitVec 32) (sel : BitVec 32 → BitVec 1) : Ideal .f32 :=
  ∑ p : Fin NPix, if sel (g p) = 1#1 then (1 : EReal) else 0

/-- From the two histograms and the two counts to the answer: normalise, `q · (log q − r)` where `q > 0`, the mean
    over the bins, plus one. -/
def tail (hp hn : FVec Ideal SBins .f32) (cp cn : FVec Ideal SNum .f32) : FVec Ideal SNum .f32 :=
  let r : FVec Ideal SBins .f32 := Host.divf hp (broadcastInDim SBins ![] (by decide) cp)
  let q : FVec Ideal SBins .f32 := Host.divf hn (broadcastInDim SBins ![] (by decide) cn)
  let z : FVec Ideal SBins .f32 := broadcastInDim SBins ![] (by decide) (constant (F := Ideal) SNum .f32 0x00000000#32)
  let one : FVec Ideal SBins .f32 := broadcastInDim SBins ![] (by decide) (constant (F := Ideal) SNum .f32 0x3F800000#32)
  let gt : IVec SBins 1 := cmpf .ogt q z
  let pw : FVec Ideal SBins .f32 := select gt (mulf q (subf (Host.log (select gt q one)) r)) z
  addf (constant (F := Ideal) SNum .f32 0x3F800000#32)
    (Host.divf (Host.reduceAdd (axes := [0]) (t := SNum) pw (constant (F := Ideal) SNum .f32 0x00000000#32))
      (constant (F := Ideal) SNum .f32 0x42C80000#32))

/-- The answer as a function of the flattened features and labels. -/
def result (X0 X1 : FVec Ideal SFeat .f32) (g : Fin NPix → BitVec 32) : FVec Ideal SNum .f32 :=
  tail (fun i => hist X0 X1 g isPos (i 0)) (fun i => hist X0 X1 g isNeg (i 0)) (fun _ => count g isPos) (fun _ => count g isNeg)

end Cert.Hist

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.Words.lean ====
/-
  Facts about words and sums that the histogram argument uses.

  Bits and words: the word of the real number one; complement on one bit; a bit read as a signed or an unsigned integer
  is the real 0 or 1; the clamped bin is a word between 0 and 99, hence never negative; a word-sum of widened bits that
  cannot wrap, read signed, is the number of set bits.

  Sums: a sum over the 2^20 pixels splits into the 128 tiles of 8192 lanes each.
-/
import proofs.«122967_j32444182954404_1_alg».proof.Proof.Spec
import Idealize.ShloMosaic.Lib.StableHlo.Predicate
import Idealize.ShloMosaic.PureOps.Ideal
import Idealize.ShloMosaic.PureOps.Ideal.Laws
import Mathlib.Logic.Equiv.Fin.Basic
import Mathlib.Algebra.BigOperators.Fin

noncomputable section

namespace Cert.Hist

open Idealize.ShloMosaic

/-- the word 0x3F800000 is the real number one -/
theorem ofBits_one : Ideal.ofBits .f32 0x3F800000#32 = (1 : EReal) := by
  simp [Ideal.ofBits, Ideal.ieee, -EReal.coe_mul]; norm_num

/-- on one bit, complement is exclusive-or with one -/
theorem noti_bit (b : BitVec 1) : ~~~b = IntOp.xori b 1#1 := by
  rcases BitVec.eq_zero_or_eq_one b with rfl | rfl <;> rfl

/-- a bit widened to a word and read as a signed integer is the real 0 or 1 -/
theorem sitofp_bit (b : BitVec 1) :
    (FloatOps.sitofp (F := Ideal) .f32 (b.setWidth 32) : Ideal .f32) = if b = 1#1 then (1 : EReal) else 0 := by
  show (((b.setWidth 32).toInt : ℝ) : EReal) = _
  rcases BitVec.eq_zero_or_eq_one b with rfl | rfl
  · have h : ((0#1 : BitVec 1).setWidth 32).toInt = 0 := by decide
    rw [h, if_neg (by decide)]; simp
  · have h : ((1#1 : BitVec 1).setWidth 32).toInt = 1 := by decide
    rw [h, if_pos rfl]; simp

/-- a bit read as an unsigned integer is the real 0 or 1 -/
theorem uitofp_bit (b : BitVec 1) :
    (FloatOps.uitofp (F := Ideal) .f32 b : Ideal .f32) = if b = 1#1 then (1 : EReal) else 0 := by
  show (((b.toNat : ℕ) : ℝ) : EReal) = _
  rcases BitVec.eq_zero_or_eq_one b with rfl | rfl
  · have h : (0#1 : BitVec 1).toNat = 0 := by decide
    rw [h, if_neg (by decide)]; simp
  · have h : (1#1 : BitVec 1).toNat = 1 := by decide
    rw [h, if_pos rfl]; simp

/-- Clamping any word to [0, 99] as a signed word leaves a value of at most 99. -/
private theorem clamp_toNat_le (w : BitVec 32) : (IntOp.minsi 99#32 (IntOp.maxsi 0#32 w)).toNat ≤ 99 := by
  unfold IntOp.minsi IntOp.maxsi
  have h99 : (99#32 : BitVec 32).toInt = 99 := by decide
  have h0 : (0#32 : BitVec 32).toInt = 0 := by decide
  by_cases hw : w.slt 0#32 = true
  · rw [if_pos hw]
    decide
  · rw [if_neg hw]
    by_cases h2 : (99#32 : BitVec 32).slt w = true
    · rw [if_pos h2]
      decide
    · rw [if_neg h2]
      simp only [BitVec.slt, decide_eq_true_eq, h99, h0, BitVec.toInt_eq_toNat_cond] at hw h2
      have := w.isLt
      split_ifs at hw h2 <;> omega

/-- the clamped bin is a word between 0 and 99 -/
theorem binOf_toNat_le (d : Ideal .f32) : (binOf d).toNat ≤ 99 := by
  unfold binOf
  exact clamp_toNat_le _

/-- so it is never negative as a signed word -/
theorem binOf_not_neg (d : Ideal .f32) : IntOp.cmpi .slt (binOf d) 0#32 = 0#1 := by
  have h := binOf_toNat_le d
  rcases BitVec.eq_zero_or_eq_one (IntOp.cmpi .slt (binOf d) 0#32) with h0 | h1
  · exact h0
  · have := (StableHlo.Predicate.slt_iff_toNat (a := binOf d) (b := 0#32) (by omega) (by decide)).1 h1
    simp at this

/-- The count of set bits, as a natural number cast to an extended real, is the sum of the reals 0 and 1. -/
private theorem cast_count {ι : Type} [DecidableEq ι] (S : Finset ι) (sel : ι → BitVec 1) :
    ((((∑ i ∈ S, if sel i = 1#1 then 1 else 0 : ℕ) : ℤ) : ℝ) : EReal) = ∑ i ∈ S, if sel i = 1#1 then (1 : EReal) else 0 := by
  induction S using Finset.cons_induction with
  | empty => simp
  | cons a S ha ih =>
    rw [Finset.sum_cons, Finset.sum_cons, ← ih]
    by_cases h : sel a = 1#1
    · simp only [h, if_true]
      push_cast
      rfl
    · simp only [h, if_false]
      simp

/-- a word-sum of widened bits over a set of fewer than 2^31 elements, read as a signed integer, is the number of set
    bits -/
theorem sitofp_fold_count {ι : Type} [DecidableEq ι] (S : Finset ι) (sel : ι → BitVec 1) (hS : S.card < 2 ^ 31) :
    (FloatOps.sitofp (F := Ideal) .f32 (S.fold IntOp.addi 0#32 fun i => (sel i).setWidth 32) : Ideal .f32)
      = ∑ i ∈ S, if sel i = 1#1 then (1 : EReal) else 0 := by
  show ((((S.fold IntOp.addi 0#32 fun i => (sel i).setWidth 32).toInt : ℤ) : ℝ) : EReal) = _
  have hval : ∀ i, ((sel i).setWidth 32).toNat = if sel i = 1#1 then 1 else 0 :=
    fun i => StableHlo.Predicate.toNat_setWidth_bit (sel i)
  have hle : ∑ i ∈ S, ((sel i).setWidth 32).toNat ≤ S.card := by
    calc ∑ i ∈ S, ((sel i).setWidth 32).toNat ≤ ∑ _i ∈ S, 1 :=
          Finset.sum_le_sum fun i _ => by rw [hval]; split <;> omega
      _ = S.card := by simp
  have hnat := StableHlo.Predicate.toNat_fold_addi S (fun i => (sel i).setWidth 32) (by omega)
  have hint : (S.fold IntOp.addi 0#32 fun i => (sel i).setWidth 32).toInt
      = ((∑ i ∈ S, if sel i = 1#1 then 1 else 0 : ℕ) : ℤ) := by
    rw [StableHlo.Predicate.toInt_eq_toNat_of_lt (by rw [hnat]; omega), hnat]
    simp only [hval]
  rw [hint]
  exact cast_count S sel

/-- A sum over `N = m · n` indices is the sum over `m` blocks of the sums over a block's `n` places. -/
private theorem sum_blocks {M : Type} [AddCommMonoid M] (m n N : ℕ) (hN : m * n = N) (f : Fin N → M) :
    ∑ t : Fin m, ∑ l : Fin n, f ⟨t.val * n + l.val, by
      have := t.isLt; have := l.isLt
      calc t.val * n + l.val < t.val * n + n := by omega
        _ = (t.val + 1) * n := (Nat.succ_mul _ _).symm
        _ ≤ m * n := Nat.mul_le_mul_right _ (by omega)
        _ = N := hN⟩ = ∑ p : Fin N, f p := by
  subst hN
  rw [← (finProdFinEquiv (m := m) (n := n)).sum_comp f, Fintype.sum_prod_type]
  refine Finset.sum_congr rfl fun t _ => Finset.sum_congr rfl fun l _ => ?_
  congr 1
  apply Fin.ext
  show t.val * n + l.val = l.val + n * t.val
  rw [Nat.mul_comm, Nat.add_comm]

/-- a sum over the 2^20 pixels is the sum over the 128 tiles of the sums over a tile's 8192 lanes -/
theorem sum_tiles {M : Type} [AddCommMonoid M] (f : Fin 1048576 → M) :
    ∑ t : Fin 128, ∑ l : Fin 8192, f ⟨t.val * 8192 + l.val, by have := t.isLt; have := l.isLt; omega⟩
      = ∑ p : Fin 1048576, f p :=
  sum_blocks 128 8192 1048576 (by norm_num) f

end Cert.Hist

end
-- ==== Proof.PayloadAt.lean ====
/-
  The values the kernel stores, read at an index, in the specification's terms.

  A tile holds 8192 lanes. Per lane the kernel forms the distance of the lane's two 32-channel columns (a sum down the
  channel axis, then a root), the range test, the clamped bin, the two label bits and the two weights; every one of these
  is a pointwise chain over the lane's own entries, so at lane l it is the specification's scalar term at the lane's
  distance and label word. The histogram columns are sums along the lanes of a one-hot selection: row b keeps the weight of
  the lanes whose bin is the word of b. The counts are sums along the lanes of the label bit read as a number. Each
  store adds such a column or count to what the accumulator held, and the reset stores write the zero word everywhere.
-/
import proofs.«122967_j32444182954404_1_alg».proof.Proof.Gen.KernelIdeal.Skeleton
import proofs.«122967_j32444182954404_1_alg».proof.Proof.Spec
import proofs.«122967_j32444182954404_1_alg».proof.Proof.LibColumns
import proofs.«122967_j32444182954404_1_alg».proof.Proof.Words
import Idealize.ShloMosaic.Lib.Pipeline.Value
import Idealize.ShloMosaic.Lib.ValueLayout
import Idealize.ShloMosaic.Lib.ValueIdx
import Idealize.ShloMosaic.PureOps.Ideal.Laws
import Idealize.ShloMosaic.Lib.StableHlo.Predicate

noncomputable section

namespace Cert.KernelIdeal.Pay

open Idealize.ShloMosaic Idealize.ShloMosaic.ValueIdx Cert.KernelIdeal Cert.KernelIdeal.Gen Cert.Hist

variable (x0 x1 : Vec Ideal S32x8192 .f32) (x2 : Vec Ideal S1x8192 .i32)

/-- the distance of lane l of a tile: that of the two blocks' columns l -/
abbrev laneDist (l : Fin 8192) : Ideal .f32 := Cert.Hist.distCol (fun c => x0 (ix2 c l)) (fun c => x1 (ix2 c l))

/-! ## One lane -/

/-- The distance row at lane l: the channel sum of the squared shifted differences of the lane's two columns, rooted. -/
theorem pay7_apply (u : Fin 1) (l : Fin 8192) : k0_pay7 (F := Ideal) x0 x1 (ix2 u l) = laneDist x0 x1 l := by
  unfold k0_pay7
  refine congrArg FloatOps.sqrt ?_
  refine (shapeCast_a_1a_apply _ _ u l).trans ?_
  refine (LibColumns.colSum_apply _ _ _ _ _ l).trans ?_
  refine Finset.sum_congr rfl fun c _ => ?_
  rw [shapeCast_self x0, shapeCast_self x1]
  rfl

/-- The bin row at lane l is the bin of the lane's distance. -/
theorem pay11_apply (u : Fin 1) (l : Fin 8192) : k0_pay11 (F := Ideal) x0 x1 (ix2 u l) = binOf (laneDist x0 x1 l) := by
  unfold k0_pay11 binOf
  exact congrArg (fun d : Ideal .f32 => IntOp.minsi 99#32 (IntOp.maxsi 0#32 (FloatOps.fptosi 32
    (FloatOps.floor (FloatOps.mulf d (FloatOps.ofBits .f32 0x42C80000#32)))))) (pay7_apply x0 x1 u l)

/-- The range-test row at lane l is the range test of the lane's distance. -/
theorem pay10_apply (u : Fin 1) (l : Fin 8192) : k0_pay10 (F := Ideal) x0 x1 (ix2 u l) = inRange (laneDist x0 x1 l) := by
  unfold k0_pay10 inRange
  exact congrArg (fun d : Ideal .f32 => IntOp.andi (FloatOps.cmpf .oge d (FloatOps.ofBits .f32 0x00000000#32))
    (FloatOps.cmpf .ole d (FloatOps.ofBits .f32 0x3F800000#32))) (pay7_apply x0 x1 u l)

/-- The zero-label row at a lane is the zero test of the lane's label word. -/
theorem pay8_apply (u : Fin 1) (l : Fin 8192) : k0_pay8 (F := Ideal) x2 (ix2 u l) = isPos (x2 (ix2 u l)) := by
  unfold k0_pay8
  rw [shapeCast_self x2]
  rfl

/-- The nonzero-label row at a lane is the complement of the zero test. -/
theorem pay9_apply (u : Fin 1) (l : Fin 8192) : k0_pay9 (F := Ideal) x2 (ix2 u l) = isNeg (x2 (ix2 u l)) := by
  unfold k0_pay9 isNeg
  exact congrArg (fun t : BitVec 1 => IntOp.xori t 1#1) (pay8_apply x2 u l)

/-- The zero-label weight row at a lane is the specification's weight of the lane. -/
theorem pay12_apply (u : Fin 1) (l : Fin 8192) :
    k0_pay12 (F := Ideal) x0 x1 x2 (ix2 u l) = weight (isPos (x2 (ix2 u l))) (laneDist x0 x1 l) := by
  unfold k0_pay12 weight
  exact congrArg₂ (fun s t : BitVec 1 => Scalar.select (IntOp.andi s t) (FloatOps.ofBits (F := Ideal) .f32 0x3F800000#32)
    (FloatOps.ofBits (F := Ideal) .f32 0x00000000#32)) (pay8_apply x2 u l) (pay10_apply x0 x1 u l)

/-- The nonzero-label selection row at a lane: the label bit and the range test. -/
theorem pay13_apply (u : Fin 1) (l : Fin 8192) :
    k0_pay13 (F := Ideal) x0 x1 x2 (ix2 u l) = IntOp.andi (isNeg (x2 (ix2 u l))) (inRange (laneDist x0 x1 l)) := by
  unfold k0_pay13
  exact congrArg₂ (fun s t : BitVec 1 => IntOp.andi s t) (pay9_apply x2 u l) (pay10_apply x0 x1 u l)

/-! ## The one-hot selection and the histogram columns -/

/-- The comparison of the row-number column with the bin row, at row b and lane l: whether the word of b is the
    lane's bin. -/
theorem pay14_apply (bins : IVec S1x8192 32) (b : Fin 128) (l : Fin 8192) :
    k0_pay14 bins (ix2 b l) = IntOp.cmpi .eq (BitVec.ofNat 32 b.val) (bins (ix2 0 l)) := by
  unfold k0_pay14
  refine congrArg₂ (fun s t : BitVec 32 => IntOp.cmpi .eq s t) ?_ ?_
  · refine (LibColumns.broadcastTo_a1_ab_apply _ _ b l).trans ?_
    exact iota_single_apply .tc S128x1 32 0 _ (ix2 b (0 : Fin 1))
  · exact broadcastTo_1b_ab_apply _ _ b l

/-- A histogram column store for any bin row and any weight row: at row b it adds to the old value the sum, over the
    lanes whose bin is the word of b, of the lane's weight. -/
theorem pay16_rows (bins : IVec S1x8192 32) (w : FVec Ideal S1x8192 .f32) (prev : Vec Ideal S128x1 .f32) (b : Fin 128)
    (u : Fin 1) :
    k0_pay16 (F := Ideal) bins w prev (ix2 b u)
      = prev (ix2 b u) + ∑ l : Fin 8192, if bins (ix2 0 l) = BitVec.ofNat 32 b.val then w (ix2 0 l) else 0 := by
  unfold k0_pay16
  rw [shapeCast_self (s := S128x1), shapeCast_self w]
  refine congrArg (fun t : Ideal .f32 => prev (ix2 b u) + t) ?_
  refine (LibColumns.shapeCast_a_a1_apply _ _ b u).trans ?_
  refine (LibColumns.rowSum_apply _ _ _ _ _ b).trans ?_
  refine Finset.sum_congr rfl fun l _ => ?_
  refine (congrArg₂ (fun (s : BitVec 1) (t : Ideal .f32) => Scalar.select s t (FloatOps.ofBits (F := Ideal) .f32 0x00000000#32))
    (pay14_apply bins b l) (broadcastTo_1b_ab_apply w _ b l)).trans ?_
  exact if_congr (StableHlo.Predicate.cmpi_eq_iff.trans eq_comm) rfl Ideal.ofBits_zero_f32

/-- The zero-label histogram column store. -/
theorem pay16_apply (prev : Vec Ideal S128x1 .f32) (b : Fin 128) (u : Fin 1) :
    k0_pay16 (F := Ideal) (k0_pay11 x0 x1) (k0_pay12 x0 x1 x2) prev (ix2 b u)
      = prev (ix2 b u) + ∑ l : Fin 8192, if binOf (laneDist x0 x1 l) = BitVec.ofNat 32 b.val then weight (isPos (x2 (ix2 0 l))) (laneDist x0 x1 l) else 0 := by
  refine (pay16_rows _ _ prev b u).trans ?_
  refine congrArg (fun t : Ideal .f32 => prev (ix2 b u) + t) ?_
  refine Finset.sum_congr rfl fun l _ => ?_
  rw [pay11_apply x0 x1 0 l, pay12_apply x0 x1 x2 0 l]

/-- The nonzero-label column store is the zero-label one's expression with the weight row selected from the two words
    it is handed. -/
theorem pay17_eq_pay16 (bins : IVec S1x8192 32) (sel : IVec S1x8192 1) (one zero : Ideal .f32) (prev : Vec Ideal S128x1 .f32) :
    k0_pay17 (F := Ideal) bins sel one zero prev
      = k0_pay16 (F := Ideal) bins (select sel (broadcast S1x8192 one) (broadcast S1x8192 zero)) prev := rfl

/-- The nonzero-label histogram column store. -/
theorem pay17_apply (prev : Vec Ideal S128x1 .f32) (b : Fin 128) (u : Fin 1) :
    k0_pay17 (F := Ideal) (k0_pay11 x0 x1) (k0_pay13 x0 x1 x2) (Scalar.ofBits .f32 0x3F800000#32) (Scalar.ofBits .f32 0x00000000#32) prev (ix2 b u)
      = prev (ix2 b u) + ∑ l : Fin 8192, if binOf (laneDist x0 x1 l) = BitVec.ofNat 32 b.val then weight (isNeg (x2 (ix2 0 l))) (laneDist x0 x1 l) else 0 := by
  refine (congrFun (pay17_eq_pay16 _ _ _ _ prev) (ix2 b u)).trans ?_
  refine (pay16_rows _ _ prev b u).trans ?_
  refine congrArg (fun t : Ideal .f32 => prev (ix2 b u) + t) ?_
  refine Finset.sum_congr rfl fun l _ => ?_
  rw [pay11_apply x0 x1 0 l]
  refine if_congr Iff.rfl ?_ rfl
  exact congrArg (fun s : BitVec 1 => Scalar.select s (FloatOps.ofBits (F := Ideal) .f32 0x3F800000#32)
    (FloatOps.ofBits (F := Ideal) .f32 0x00000000#32)) (pay13_apply x0 x1 x2 0 l)

/-! ## The counts -/

/-- The lane sum of a bit row read as numbers, cast to the one-entry array: how many lanes have the bit set. -/
theorem pay15_rows (sel : IVec S1x8192 1) (a c : Fin 1) :
    k0_pay15 (F := Ideal) sel (ix2 a c) = ∑ l : Fin 8192, if sel (ix2 0 l) = 1#1 then (1 : EReal) else 0 := by
  unfold k0_pay15
  refine (LibColumns.shapeCast_a_a1_apply _ _ a c).trans ?_
  refine (LibColumns.rowSum_apply _ _ _ _ _ a).trans ?_
  obtain rfl : a = 0 := Fin.eq_zero a
  exact Finset.sum_congr rfl fun l _ => sitofp_bit (sel (ix2 0 l))

/-- The zero-label count store: the old count plus the number of the tile's lanes whose label is zero. -/
theorem pay18_apply (prev : Vec Ideal S1x1 .f32) (i : S1x1.Idx) :
    k0_pay1 (F := Ideal) (k0_pay18 (k0_pay8 x2) prev) i = prev i + ∑ l : Fin 8192, if isPos (x2 (ix2 0 l)) = 1#1 then (1 : EReal) else 0 := by
  obtain ⟨a, c, rfl⟩ : ∃ a c, i = ix2 a c := ⟨i 0, i 1, eq_ix2 i⟩
  unfold k0_pay1
  rw [shapeCast_self]
  refine (congrArg (fun t : Ideal .f32 => prev (ix2 a c) + t) (pay15_rows (k0_pay8 x2) a c)).trans ?_
  refine congrArg (fun t : Ideal .f32 => prev (ix2 a c) + t) ?_
  refine Finset.sum_congr rfl fun l _ => ?_
  rw [pay8_apply x2 0 l]

/-- The nonzero-label count store: the old count plus the number of the tile's lanes whose label is not zero. -/
theorem pay15_apply (prev : Vec Ideal S1x1 .f32) (i : S1x1.Idx) :
    k0_pay2 (F := Ideal) (k0_pay15 (k0_pay9 x2)) prev i = prev i + ∑ l : Fin 8192, if isNeg (x2 (ix2 0 l)) = 1#1 then (1 : EReal) else 0 := by
  obtain ⟨a, c, rfl⟩ : ∃ a c, i = ix2 a c := ⟨i 0, i 1, eq_ix2 i⟩
  unfold k0_pay2
  rw [shapeCast_self]
  refine (congrArg (fun t : Ideal .f32 => prev (ix2 a c) + t) (pay15_rows (k0_pay9 x2) a c)).trans ?_
  refine congrArg (fun t : Ideal .f32 => prev (ix2 a c) + t) ?_
  refine Finset.sum_congr rfl fun l _ => ?_
  rw [pay9_apply x2 0 l]

/-! ## The reset stores -/

/-- The reset of the zero-label histogram column writes zero everywhere. -/
theorem pay3_apply (i : S128x1.Idx) : k0_pay3 (F := Ideal) i = 0 := by
  unfold k0_pay3
  rw [shapeCast_self]
  exact Ideal.ofBits_zero_f32

/-- The reset of the nonzero-label histogram column writes zero everywhere. -/
theorem pay4_apply (i : S128x1.Idx) : k0_pay4 (F := Ideal) i = 0 := by
  unfold k0_pay4
  rw [shapeCast_self]
  exact Ideal.ofBits_zero_f32

/-- The reset of the zero-label count writes zero. -/
theorem pay5_apply (i : S1x1.Idx) : k0_pay5 (F := Ideal) i = 0 := by
  unfold k0_pay5
  rw [shapeCast_self]
  exact Ideal.ofBits_zero_f32

/-- The reset of the nonzero-label count writes zero. -/
theorem pay6_apply (i : S1x1.Idx) : k0_pay6 (F := Ideal) i = 0 := by
  unfold k0_pay6
  rw [shapeCast_self]
  exact Ideal.ofBits_zero_f32

end Cert.KernelIdeal.Pay

end
-- ==== Proof.BlockRead.lean ====
/-
  The blocks the pipeline hands the body at a grid point, read at an index of the whole arrays.

  The three inputs are flattened on the host before the region: the two feature arrays to channel × pixel, the label array
  to one row of pixels. A feature window's block at grid point t is all 32 channels of the 8192 pixels from 8192 t on,
  and the label window's block is the one row of the same pixels: the window's index map sends t to the block index
  (0, t), and a block's entry at a coordinate inside it is the array's entry at block index × block size + that
  coordinate, axis by axis.
-/
import proofs.«122967_j32444182954404_1_alg».proof.Proof.Gen.KernelIdeal.Frame.RunB
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F] (m : (ℓ : Loc nD τ sig) → Buf (Elt F) ℓ)

/-- The first feature window's block at grid point t. -/
abbrev blk0 (c : Dev nD) (t : Fin cfg0.N) : Vec F S32x8192 .f32 := iblk m c 0 t
/-- The second feature window's block at grid point t. -/
abbrev blk1 (c : Dev nD) (t : Fin cfg0.N) : Vec F S32x8192 .f32 := iblk m c 1 t
/-- The label window's block at grid point t. -/
abbrev blk2 (c : Dev nD) (t : Fin cfg0.N) : Vec F S1x8192 .i32 := iblk m c 2 t
/-- The first feature array as the region finds it. -/
abbrev arr0 (c : Dev nD) : Vec F S32x1048576 .f32 := V m c main_v0
/-- The second feature array as the region finds it. -/
abbrev arr1 (c : Dev nD) : Vec F S32x1048576 .f32 := V m c main_v1
/-- The label array as the region finds it. -/
abbrev arr2 (c : Dev nD) : Vec F S1x1048576 .i32 := V m c main_v2

/-! ## The arrays: the arguments flattened -/

/-- The first feature array is the first argument with its image axes flattened to one pixel axis. -/
theorem arr0_eq (c : Dev nD) : arr0 m c = shapeCast S32x1048576 (m ((c : Thread nD τ).loc main_arg0)) shapeCasts_S1x32x1024x1024_S32x1048576 := by
  show StableHlo.after hostOps0 (fun b => m (c, b)) (Proc.devRef .tc main_v0) = _
  after_results
  rfl

/-- The second feature array is the second argument flattened the same way. -/
theorem arr1_eq (c : Dev nD) : arr1 m c = shapeCast S32x1048576 (m ((c : Thread nD τ).loc main_arg1)) shapeCasts_S1x32x1024x1024_S32x1048576 := by
  show StableHlo.after hostOps0 (fun b => m (c, b)) (Proc.devRef .tc main_v1) = _
  after_results
  rfl

/-- The label array is the third argument flattened to one row of pixels. -/
theorem arr2_eq (c : Dev nD) : arr2 m c = shapeCast S1x1048576 (m ((c : Thread nD τ).loc main_arg2)) shapeCasts_S1x1024x1024_S1x1048576 := by
  show StableHlo.after hostOps0 (fun b => m (c, b)) (Proc.devRef .tc main_v2) = _
  after_results
  rfl

/-! ## The blocks: 8192 pixels from 8192 t on -/

/-- The first feature window's block index at grid point t is (0, t). -/
theorem index0 : ∀ t : Fin cfg0.N, win0_0.index t 0 = 0 ∧ win0_0.index t 1 = t.val :=
  (by decide +kernel : ∀ t : Fin grid0.N, win0_0.index t 0 = 0 ∧ win0_0.index t 1 = t.val)

/-- The second feature window's block index at grid point t is (0, t). -/
theorem index1 : ∀ t : Fin cfg0.N, win0_1.index t 0 = 0 ∧ win0_1.index t 1 = t.val :=
  (by decide +kernel : ∀ t : Fin grid0.N, win0_1.index t 0 = 0 ∧ win0_1.index t 1 = t.val)

/-- The label window's block index at grid point t is (0, t). -/
theorem index2 : ∀ t : Fin cfg0.N, win0_2.index t 0 = 0 ∧ win0_2.index t 1 = t.val :=
  (by decide +kernel : ∀ t : Fin grid0.N, win0_2.index t 0 = 0 ∧ win0_2.index t 1 = t.val)

/-- The first feature block at channel ch and lane l is the array at channel ch and pixel 8192 t + l. -/
theorem blk0_apply (c : Dev nD) (t : Fin cfg0.N) (ch : Fin 32) (l : Fin 8192) (h : t.val * 8192 + l.val < 1048576) :
    blk0 m c t (ix2 ch l) = arr0 m c (ix2 ch ⟨t.val * 8192 + l.val, h⟩) := by
  have hi := index0 t
  show V m c main_v0 (((cfg0.win 0).blk t).view.emb (ix2 ch l)) = V m c main_v0 (ix2 ch ⟨t.val * 8192 + l.val, h⟩)
  refine congrArg (V m c main_v0) (funext fun a => Fin.ext ?_)
  match a with
  | ⟨0, _⟩ => show win0_0.index t 0 * 32 + 1 * ch.val = ch.val; rw [hi.1]; omega
  | ⟨1, _⟩ => show win0_0.index t 1 * 8192 + 1 * l.val = t.val * 8192 + l.val; rw [hi.2]; omega

/-- The second feature block at channel ch and lane l is the array at channel ch and pixel 8192 t + l. -/
theorem blk1_apply (c : Dev nD) (t : Fin cfg0.N) (ch : Fin 32) (l : Fin 8192) (h : t.val * 8192 + l.val < 1048576) :
    blk1 m c t (ix2 ch l) = arr1 m c (ix2 ch ⟨t.val * 8192 + l.val, h⟩) := by
  have hi := index1 t
  show V m c main_v1 (((cfg0.win 1).blk t).view.emb (ix2 ch l)) = V m c main_v1 (ix2 ch ⟨t.val * 8192 + l.val, h⟩)
  refine congrArg (V m c main_v1) (funext fun a => Fin.ext ?_)
  match a with
  | ⟨0, _⟩ => show win0_1.index t 0 * 32 + 1 * ch.val = ch.val; rw [hi.1]; omega
  | ⟨1, _⟩ => show win0_1.index t 1 * 8192 + 1 * l.val = t.val * 8192 + l.val; rw [hi.2]; omega

/-- The label block at lane l is the label row at pixel 8192 t + l. -/
theorem blk2_apply (c : Dev nD) (t : Fin cfg0.N) (u : Fin 1) (l : Fin 8192) (h : t.val * 8192 + l.val < 1048576) :
    blk2 m c t (ix2 u l) = arr2 m c (ix2 (0 : Fin 1) ⟨t.val * 8192 + l.val, h⟩) := by
  have hi := index2 t
  have hu : u.val = 0 := by omega
  show V m c main_v2 (((cfg0.win 2).blk t).view.emb (ix2 u l)) = V m c main_v2 (ix2 (0 : Fin 1) ⟨t.val * 8192 + l.val, h⟩)
  refine congrArg (V m c main_v2) (funext fun a => Fin.ext ?_)
  match a with
  | ⟨0, _⟩ => show win0_2.index t 0 * 1 + 1 * u.val = 0; rw [hi.1]; omega
  | ⟨1, _⟩ => show win0_2.index t 1 * 8192 + 1 * l.val = t.val * 8192 + l.val; rw [hi.2]; omega

end Cert.KernelIdeal.Blocks

end
-- ==== Proof.Layout.lean ====
/-
  The histogram and the count, tile by tile; and three reshaped arrays read at an index.

  A pixel of the 2^20 is lane `l` of tile `t`, at position `8192 t + l`; a sum over the pixels is the sum over the 128
  tiles of the sums over a tile's 8192 lanes, so the histogram's bins and the label counts are such double sums.

  Reads: the first hundred rows of a one-column array, flattened, at `b` is the column's entry of row `b`; a 1 × 1 array
  cast to rank zero is its one entry; the 1 × 1024 × 1024 label image flattened to one row of 2^20 and to a vector of
  2^20 agree at every pixel, both being the image at the same row-major position.
-/
import proofs.«122967_j32444182954404_1_alg».proof.Proof.Spec
import proofs.«122967_j32444182954404_1_alg».proof.Proof.Words
import Idealize.ShloMosaic.PureOps.ShapeOps
import Idealize.ShloMosaic.Lib.Pipeline.Value
import Idealize.ShloMosaic.Lib.ValueLayout
import Idealize.ShloMosaic.Lib.ValueIdx

noncomputable section

namespace Cert.Hist

open Idealize.ShloMosaic Idealize.ShloMosaic.ValueIdx

/-- pixel l of tile t -/
abbrev pix (t : Fin 128) (l : Fin 8192) : Fin NPix :=
  ⟨t.val * 8192 + l.val, by have := t.isLt; have := l.isLt; show t.val * 8192 + l.val < 1048576; omega⟩

/-- a bin of the histogram is the sum over the tiles of the sums over a tile's lanes of what each pixel adds to it -/
theorem hist_tiles (X0 X1 : FVec Ideal SFeat .f32) (g : Fin NPix → BitVec 32) (sel : BitVec 32 → BitVec 1) (b : Fin 100) :
    hist X0 X1 g sel b = ∑ t : Fin 128, ∑ l : Fin 8192, if binOf (dist X0 X1 (pix t l)) = BitVec.ofNat 32 b.val then weight (sel (g (pix t l))) (dist X0 X1 (pix t l)) else 0 := by
  unfold hist
  exact (sum_tiles fun p => if binOf (dist X0 X1 p) = BitVec.ofNat 32 b.val then weight (sel (g p)) (dist X0 X1 p) else 0).symm

/-- a label count is the sum over the tiles of the sums over a tile's lanes of the selected pixels -/
theorem count_tiles (g : Fin NPix → BitVec 32) (sel : BitVec 32 → BitVec 1) :
    count g sel = ∑ t : Fin 128, ∑ l : Fin 8192, if sel (g (pix t l)) = 1#1 then (1 : EReal) else 0 := by
  unfold count
  exact (sum_tiles fun p => if sel (g p) = 1#1 then (1 : EReal) else 0).symm

/-- the first hundred rows of a [128,1] column, cast to [100], read at b: the column's entry of row b -/
theorem sliceCol_apply {α : Type} (v : (⟨2, ![128, 1]⟩ : Shape).Idx → α) (hs : (⟨2, ![128, 1]⟩ : Shape).Slices ![0, 0] ⟨2, ![100, 1]⟩) (hc : (⟨2, ![100, 1]⟩ : Shape).ShapeCasts ⟨1, ![100]⟩) (b : Fin 100) :
    shapeCast ⟨1, ![100]⟩ (extractStridedSlice ⟨2, ![100, 1]⟩ ![0, 0] v hs) hc (ix1 b) = v (ix2 (⟨b.val, by have := b.isLt; omega⟩ : Fin 128) (0 : Fin 1)) := by
  -- row b of the hundred-row column sits at row-major position b, as does entry b of the vector
  have hpos : ((⟨2, ![100, 1]⟩ : Shape).rowMajor (ix2 b (0 : Fin 1))).val = ((⟨1, ![100]⟩ : Shape).rowMajor (ix1 b)).val := by
    rw [Shape.rowMajor_val_two, Shape.rowMajor_val_one]
    show b.val * 1 + 0 = b.val
    omega
  rw [shapeCast_apply _ hc (ix1 b) (ix2 b (0 : Fin 1)) hpos]
  -- the block starts at row 0, column 0
  exact extractStridedSlice_apply _ v hs (ix2 b (0 : Fin 1)) _ (fun a => by
    match a with
    | ⟨0, _⟩ => exact (Nat.zero_add _).symm
    | ⟨1, _⟩ => rfl)

/-- a [1,1] array cast to rank zero is its one entry -/
theorem num_apply {α : Type} (v : (⟨2, ![1, 1]⟩ : Shape).Idx → α) (hc : (⟨2, ![1, 1]⟩ : Shape).ShapeCasts ⟨0, ![]⟩) (j : (⟨0, ![]⟩ : Shape).Idx) :
    shapeCast ⟨0, ![]⟩ v hc j = v (ix2 (0 : Fin 1) (0 : Fin 1)) := by
  refine shapeCast_apply v hc j (ix2 (0 : Fin 1) (0 : Fin 1)) ?_
  -- both positions are 0
  rw [Shape.rowMajor_val_two]
  show (0 : ℕ) * 1 + 0 = (Shape.rowMajorPi _ j).val
  rw [Shape.rowMajorPi_zero]

/-- the label image flattened to [1, 2^20] and to [2^20] agree pixel by pixel -/
theorem labels_flat {α : Type} (gt : (⟨3, ![1, 1024, 1024]⟩ : Shape).Idx → α) (h2 : (⟨3, ![1, 1024, 1024]⟩ : Shape).ShapeCasts ⟨2, ![1, 1048576]⟩) (h1 : (⟨3, ![1, 1024, 1024]⟩ : Shape).ShapeCasts ⟨1, ![1048576]⟩) (p : Fin 1048576) :
    shapeCast ⟨2, ![1, 1048576]⟩ gt h2 (ix2 (0 : Fin 1) p) = shapeCast ⟨1, ![1048576]⟩ gt h1 (ix1 p) := by
  -- pixel p is row p / 1024, column p % 1024 of the image; both flattenings put it at position p
  have hp := p.isLt
  have hr : p.val / 1024 < 1024 := by omega
  have hq : p.val % 1024 < 1024 := by omega
  have e2 := shapeCast_apply gt h2 (ix2 (0 : Fin 1) p) (ix3 (0 : Fin 1) (⟨p.val / 1024, hr⟩ : Fin 1024) (⟨p.val % 1024, hq⟩ : Fin 1024)) (by
    rw [Shape.rowMajor_val_three, Shape.rowMajor_val_two]
    show ((0 : ℕ) * 1024 + p.val / 1024) * 1024 + p.val % 1024 = 0 * 1048576 + p.val
    omega)
  have e1 := shapeCast_apply gt h1 (ix1 p) (ix3 (0 : Fin 1) (⟨p.val / 1024, hr⟩ : Fin 1024) (⟨p.val % 1024, hq⟩ : Fin 1024)) (by
    rw [Shape.rowMajor_val_three, Shape.rowMajor_val_one]
    show ((0 : ℕ) * 1024 + p.val / 1024) * 1024 + p.val % 1024 = p.val
    omega)
  rw [e2, e1]

end Cert.Hist

end
-- ==== Proof.TileStep.lean ====
/-
  One grid point's share of the specification's sums, and the 128 shares together.

  Pixel 8192 t + l of the flattened arrays is lane l of tile t. The block a window hands the body at grid point t is
  that stretch of its array, so a lane's distance is the pixel's distance and a lane's label word is the pixel's label
  word; each accumulating store therefore adds the tile's share of a histogram bin or of a count, written over the
  arrays. A value that starts at the first share and gains one share per step ends at the sum of the shares, and the
  shares of the 128 tiles sum to the specification's histogram bins and counts, a pixel sum being the sum over the
  tiles of the sums over a tile's lanes.
-/
import proofs.«122967_j32444182954404_1_alg».proof.Proof.PayloadAt
import proofs.«122967_j32444182954404_1_alg».proof.Proof.BlockRead
import proofs.«122967_j32444182954404_1_alg».proof.Proof.Layout
import proofs.«122967_j32444182954404_1_alg».proof.Proof.Words

set_option maxRecDepth 16384

noncomputable section

namespace Cert.KernelIdeal.Tiles

open Idealize.ShloMosaic Idealize.ShloMosaic.ValueIdx Cert.KernelIdeal Cert.KernelIdeal.Gen Cert.Hist Cert.KernelIdeal.Blocks Cert.KernelIdeal.Pay

variable (m : (ℓ : Loc nD τ sig) → Buf (Elt Ideal) ℓ) (c : Dev nD)

/-- the label word of pixel p -/
abbrev lab (p : Fin NPix) : BitVec 32 := arr2 m c (ix2 (0 : Fin 1) p)

/-- tile t's share of bin b of the histogram of the pixels a label test selects -/
def tileHist (sel : BitVec 32 → BitVec 1) (t : ℕ) (ht : t < 128) (b : Fin 128) : Ideal .f32 :=
  ∑ l : Fin 8192, if binOf (dist (arr0 m c) (arr1 m c) (pix ⟨t, ht⟩ l)) = BitVec.ofNat 32 b.val then weight (sel (lab m c (pix ⟨t, ht⟩ l))) (dist (arr0 m c) (arr1 m c) (pix ⟨t, ht⟩ l)) else 0

/-- tile t's share of the count -/
def tileCount (sel : BitVec 32 → BitVec 1) (t : ℕ) (ht : t < 128) : Ideal .f32 :=
  ∑ l : Fin 8192, if sel (lab m c (pix ⟨t, ht⟩ l)) = 1#1 then (1 : EReal) else 0

/-! ## A lane of tile t is a pixel -/

/-- The distance of lane l of the blocks at grid point t is the distance of pixel 8192 t + l of the arrays. -/
theorem lane_dist (t : Fin cfg0.N) (ht : t.val < 128) (l : Fin 8192) :
    laneDist (blk0 m c t) (blk1 m c t) l = dist (arr0 m c) (arr1 m c) (pix ⟨t.val, ht⟩ l) := by
  have h : t.val * 8192 + l.val < 1048576 := (pix ⟨t.val, ht⟩ l).isLt
  show distCol (fun ch => blk0 m c t (ix2 ch l)) (fun ch => blk1 m c t (ix2 ch l))
    = distCol (fun ch => arr0 m c (ix2 ch (pix ⟨t.val, ht⟩ l))) (fun ch => arr1 m c (ix2 ch (pix ⟨t.val, ht⟩ l)))
  exact congrArg₂ distCol (funext fun ch => blk0_apply m c t ch l h) (funext fun ch => blk1_apply m c t ch l h)

/-- The label word of lane l of the label block at grid point t is the label word of pixel 8192 t + l. -/
theorem lane_lab (t : Fin cfg0.N) (ht : t.val < 128) (l : Fin 8192) :
    blk2 m c t (ix2 0 l) = lab m c (pix ⟨t.val, ht⟩ l) :=
  blk2_apply m c t 0 l (pix ⟨t.val, ht⟩ l).isLt

/-! ## One grid point -/

/-- The zero-label histogram store at grid point t adds tile t's share of every bin. -/
theorem hp_step (t : Fin cfg0.N) (ht : t.val < 128) (prev : Vec Ideal S128x1 .f32) (b : Fin 128) (u : Fin 1) :
    k0_pay16 (F := Ideal) (k0_pay11 (blk0 m c t) (blk1 m c t)) (k0_pay12 (blk0 m c t) (blk1 m c t) (blk2 m c t)) prev (ix2 b u) = prev (ix2 b u) + tileHist m c isPos t.val ht b := by
  refine (pay16_apply (blk0 m c t) (blk1 m c t) (blk2 m c t) prev b u).trans ?_
  refine congrArg (fun s : Ideal .f32 => prev (ix2 b u) + s) ?_
  unfold tileHist
  refine Finset.sum_congr rfl fun l _ => ?_
  rw [lane_dist m c t ht l, lane_lab m c t ht l]

/-- The nonzero-label histogram store at grid point t adds tile t's share of every bin. -/
theorem hn_step (t : Fin cfg0.N) (ht : t.val < 128) (prev : Vec Ideal S128x1 .f32) (b : Fin 128) (u : Fin 1) :
    k0_pay17 (F := Ideal) (k0_pay11 (blk0 m c t) (blk1 m c t)) (k0_pay13 (blk0 m c t) (blk1 m c t) (blk2 m c t)) (Scalar.ofBits .f32 0x3F800000#32) (Scalar.ofBits .f32 0x00000000#32) prev (ix2 b u) = prev (ix2 b u) + tileHist m c isNeg t.val ht b := by
  refine (pay17_apply (blk0 m c t) (blk1 m c t) (blk2 m c t) prev b u).trans ?_
  refine congrArg (fun s : Ideal .f32 => prev (ix2 b u) + s) ?_
  unfold tileHist
  refine Finset.sum_congr rfl fun l _ => ?_
  rw [lane_dist m c t ht l, lane_lab m c t ht l]

/-- The zero-label count store at grid point t adds the number of tile t's pixels whose label is zero. -/
theorem pc_step (t : Fin cfg0.N) (ht : t.val < 128) (prev : Vec Ideal S1x1 .f32) (i : S1x1.Idx) :
    k0_pay1 (F := Ideal) (k0_pay18 (k0_pay8 (blk2 m c t)) prev) i = prev i + tileCount m c isPos t.val ht := by
  refine (pay18_apply (blk2 m c t) prev i).trans ?_
  refine congrArg (fun s : Ideal .f32 => prev i + s) ?_
  unfold tileCount
  refine Finset.sum_congr rfl fun l _ => ?_
  rw [lane_lab m c t ht l]

/-- The nonzero-label count store at grid point t adds the number of tile t's pixels whose label is not zero. -/
theorem nc_step (t : Fin cfg0.N) (ht : t.val < 128) (prev : Vec Ideal S1x1 .f32) (i : S1x1.Idx) :
    k0_pay2 (F := Ideal) (k0_pay15 (k0_pay9 (blk2 m c t))) prev i = prev i + tileCount m c isNeg t.val ht := by
  refine (pay15_apply (blk2 m c t) prev i).trans ?_
  refine congrArg (fun s : Ideal .f32 => prev i + s) ?_
  unfold tileCount
  refine Finset.sum_congr rfl fun l _ => ?_
  rw [lane_lab m c t ht l]

/-! ## All the grid points -/

/-- a value that starts at zero plus the first share and gains one share per step is, after the last step, the sum of all shares -/
theorem running_sum (a f : (n : ℕ) → n < 128 → EReal) (h0 : a 0 (by omega) = 0 + f 0 (by omega))
    (hs : ∀ (n : ℕ) (h : n + 1 < 128), a (n + 1) h = a n (by omega) + f (n + 1) h) : a 127 (by omega) = ∑ t : Fin 128, f t.val t.isLt := by
  -- after step n the value is the sum of the shares 0 … n
  have upto : ∀ (n : ℕ) (h : n < 128), a n h = ∑ t ∈ Finset.range (n + 1), (if ht : t < 128 then f t ht else 0) := by
    intro n
    induction n with
    | zero =>
      intro h
      rw [h0, zero_add, Finset.sum_range_one, dif_pos h]
    | succ k ih =>
      intro h
      rw [hs k h, ih (by omega), Finset.sum_range_succ _ (k + 1), dif_pos h]
  have last : a 127 (by omega) = ∑ t ∈ Finset.range 128, (if ht : t < 128 then f t ht else 0) := upto 127 (by omega)
  rw [last, Finset.sum_range]
  exact Finset.sum_congr rfl fun t _ => dif_pos t.isLt

/-- The tiles' shares of a bin sum to the specification's bin over the arrays. -/
theorem hist_total (sel : BitVec 32 → BitVec 1) (b : Fin 100) :
    ∑ t : Fin 128, tileHist m c sel t.val t.isLt ⟨b.val, by have := b.isLt; omega⟩ = hist (arr0 m c) (arr1 m c) (lab m c) sel b := by
  unfold tileHist
  exact (hist_tiles (arr0 m c) (arr1 m c) (lab m c) sel b).symm

/-- The tiles' shares of a count sum to the specification's count over the label array. -/
theorem count_total (sel : BitVec 32 → BitVec 1) : ∑ t : Fin 128, tileCount m c sel t.val t.isLt = count (lab m c) sel := by
  unfold tileCount
  exact (count_tiles (lab m c) sel).symm

end Cert.KernelIdeal.Tiles

end
-- ==== Proof.KValue.lean ====
/-
  What the four accumulators hold after the last grid point, in the specification's terms.

  Each accumulator starts, at the first grid point, from the cleared value plus the first tile's share, and gains one
  tile's share at every later point; a value that moves so ends at the sum of all the shares. So after point 127 a
  histogram column holds, at row b, the sum over the 128 tiles of the tile's share of bin b, and a count holds the sum
  of the tiles' shares of the count.
-/
import proofs.«122967_j32444182954404_1_alg».proof.Proof.KFinal
import proofs.«122967_j32444182954404_1_alg».proof.Proof.TileStep
import proofs.«122967_j32444182954404_1_alg».proof.Proof.PayloadAt

set_option maxRecDepth 16384

noncomputable section

namespace Cert.KernelIdeal.Acc

open Idealize.ShloMosaic Idealize.ShloMosaic.TcCoe Idealize.SL.Sem
open Cert.KernelIdeal Cert.KernelIdeal.Gen Cert.KernelIdeal.GenP Cert.Hist Cert.KernelIdeal.Blocks Cert.KernelIdeal.Pay Cert.KernelIdeal.Tiles Idealize.ShloMosaic.ValueIdx

variable (m : (ℓ : Loc nD τ sig) → Buf (Elt Ideal) ℓ) (c : Dev nD)

/-- A point below 128 is a grid point. -/
theorem lt_grid {n : ℕ} (h : n < 128) : n < cfg0.N := by rw [show cfg0.N = 128 from N_0]; exact h

/-! ## The chain, one component at a time -/

/-- After the first point the zero-label column is the first tile's step over the cleared column. -/
theorem acc_zero_hp (h : 0 < cfg0.N) :
    (acc m c 0 h).1 = hpNext (f0 m c ⟨0, h⟩) (f1 m c ⟨0, h⟩) (lb m c ⟨0, h⟩) (k0_pay3 (F := Ideal)) := rfl
/-- After the first point the nonzero-label column is the first tile's step over the cleared column. -/
theorem acc_zero_hn (h : 0 < cfg0.N) :
    (acc m c 0 h).2.1 = hnNext (f0 m c ⟨0, h⟩) (f1 m c ⟨0, h⟩) (lb m c ⟨0, h⟩) (k0_pay4 (F := Ideal)) := rfl
/-- After the first point the zero-label count is the first tile's step over the cleared count. -/
theorem acc_zero_pc (h : 0 < cfg0.N) : (acc m c 0 h).2.2.1 = pcNext (lb m c ⟨0, h⟩) (k0_pay5 (F := Ideal)) := rfl
/-- After the first point the nonzero-label count is the first tile's step over the cleared count. -/
theorem acc_zero_nc (h : 0 < cfg0.N) : (acc m c 0 h).2.2.2 = ncNext (lb m c ⟨0, h⟩) (k0_pay6 (F := Ideal)) := rfl

/-- After a later point the zero-label column is that tile's step over what the point before left. -/
theorem acc_succ_hp (n : ℕ) (h : n + 1 < cfg0.N) :
    (acc m c (n + 1) h).1
      = hpNext (f0 m c ⟨n + 1, h⟩) (f1 m c ⟨n + 1, h⟩) (lb m c ⟨n + 1, h⟩) (acc m c n (Nat.lt_of_succ_lt h)).1 := rfl
/-- After a later point the nonzero-label column is that tile's step over what the point before left. -/
theorem acc_succ_hn (n : ℕ) (h : n + 1 < cfg0.N) :
    (acc m c (n + 1) h).2.1
      = hnNext (f0 m c ⟨n + 1, h⟩) (f1 m c ⟨n + 1, h⟩) (lb m c ⟨n + 1, h⟩) (acc m c n (Nat.lt_of_succ_lt h)).2.1 := rfl
/-- After a later point the zero-label count is that tile's step over what the point before left. -/
theorem acc_succ_pc (n : ℕ) (h : n + 1 < cfg0.N) :
    (acc m c (n + 1) h).2.2.1 = pcNext (lb m c ⟨n + 1, h⟩) (acc m c n (Nat.lt_of_succ_lt h)).2.2.1 := rfl
/-- After a later point the nonzero-label count is that tile's step over what the point before left. -/
theorem acc_succ_nc (n : ℕ) (h : n + 1 < cfg0.N) :
    (acc m c (n + 1) h).2.2.2 = ncNext (lb m c ⟨n + 1, h⟩) (acc m c n (Nat.lt_of_succ_lt h)).2.2.2 := rfl

/-! ## After the last point -/

/-- The zero-label column after the last point: at row b, the sum of the tiles' shares of bin b. -/
theorem last_hp (b : Fin 128) (u : Fin 1) : (last m c).1 (ix2 b u) = ∑ t : Fin 128, tileHist m c isPos t.val t.isLt b := by
  refine running_sum (fun n h => (acc m c n (lt_grid h)).1 (ix2 b u)) (fun t ht => tileHist m c isPos t ht b) ?_ ?_
  · refine (congrFun (acc_zero_hp m c (lt_grid (by decide))) (ix2 b u)).trans ?_
    refine (hp_step m c ⟨0, lt_grid (by decide)⟩ (by decide) (k0_pay3 (F := Ideal)) b u).trans ?_
    exact congrArg (fun z : Ideal .f32 => z + tileHist m c isPos 0 (by decide) b) (pay3_apply (ix2 b u))
  · intro n h
    refine (congrFun (acc_succ_hp m c n (lt_grid h)) (ix2 b u)).trans ?_
    exact hp_step m c ⟨n + 1, lt_grid h⟩ h (acc m c n (Nat.lt_of_succ_lt (lt_grid h))).1 b u

/-- The nonzero-label column after the last point: at row b, the sum of the tiles' shares of bin b. -/
theorem last_hn (b : Fin 128) (u : Fin 1) : (last m c).2.1 (ix2 b u) = ∑ t : Fin 128, tileHist m c isNeg t.val t.isLt b := by
  refine running_sum (fun n h => (acc m c n (lt_grid h)).2.1 (ix2 b u)) (fun t ht => tileHist m c isNeg t ht b) ?_ ?_
  · refine (congrFun (acc_zero_hn m c (lt_grid (by decide))) (ix2 b u)).trans ?_
    refine (hn_step m c ⟨0, lt_grid (by decide)⟩ (by decide) (k0_pay4 (F := Ideal)) b u).trans ?_
    exact congrArg (fun z : Ideal .f32 => z + tileHist m c isNeg 0 (by decide) b) (pay4_apply (ix2 b u))
  · intro n h
    refine (congrFun (acc_succ_hn m c n (lt_grid h)) (ix2 b u)).trans ?_
    exact hn_step m c ⟨n + 1, lt_grid h⟩ h (acc m c n (Nat.lt_of_succ_lt (lt_grid h))).2.1 b u

/-- The zero-label count after the last point: the sum of the tiles' shares of the count. -/
theorem last_pc (i : S1x1.Idx) : (last m c).2.2.1 i = ∑ t : Fin 128, tileCount m c isPos t.val t.isLt := by
  refine running_sum (fun n h => (acc m c n (lt_grid h)).2.2.1 i) (fun t ht => tileCount m c isPos t ht) ?_ ?_
  · refine (congrFun (acc_zero_pc m c (lt_grid (by decide))) i).trans ?_
    refine (pc_step m c ⟨0, lt_grid (by decide)⟩ (by decide) (k0_pay5 (F := Ideal)) i).trans ?_
    exact congrArg (fun z : Ideal .f32 => z + tileCount m c isPos 0 (by decide)) (pay5_apply i)
  · intro n h
    refine (congrFun (acc_succ_pc m c n (lt_grid h)) i).trans ?_
    exact pc_step m c ⟨n + 1, lt_grid h⟩ h (acc m c n (Nat.lt_of_succ_lt (lt_grid h))).2.2.1 i

/-- The nonzero-label count after the last point: the sum of the tiles' shares of the count. -/
theorem last_nc (i : S1x1.Idx) : (last m c).2.2.2 i = ∑ t : Fin 128, tileCount m c isNeg t.val t.isLt := by
  refine running_sum (fun n h => (acc m c n (lt_grid h)).2.2.2 i) (fun t ht => tileCount m c isNeg t ht) ?_ ?_
  · refine (congrFun (acc_zero_nc m c (lt_grid (by decide))) i).trans ?_
    refine (nc_step m c ⟨0, lt_grid (by decide)⟩ (by decide) (k0_pay6 (F := Ideal)) i).trans ?_
    exact congrArg (fun z : Ideal .f32 => z + tileCount m c isNeg 0 (by decide)) (pay6_apply i)
  · intro n h
    refine (congrFun (acc_succ_nc m c n (lt_grid h)) i).trans ?_
    exact nc_step m c ⟨n + 1, lt_grid h⟩ h (acc m c n (Nat.lt_of_succ_lt (lt_grid h))).2.2.2 i

end Cert.KernelIdeal.Acc

end
-- ==== Proof.KTail.lean ====
/-
  The program's last stretch: from the four arrays the region leaves — two columns of 128 histogram rows and two
  single counts — to the answer.

  After the region the program takes the first hundred rows of each column as a vector of bins, reads each count as a
  number, divides each histogram by its count, takes `q · (log q − r)` where `q > 0` (the logarithm guarded by putting
  one where `q` is not positive), sums the hundred bins, divides by a hundred and adds one. These are, operation by
  operation, the specification's tail applied to the two bin vectors and the two numbers; whatever the region leaves in
  the four arrays, the result buffer holds that tail of them.
-/
import proofs.«122967_j32444182954404_1_alg».proof.Proof.Gen.KernelIdeal.Launch
import proofs.«122967_j32444182954404_1_alg».proof.Proof.Spec
import Idealize.ShloMosaic.Lib.StableHlo.Run
import Idealize.ShloMosaic.Lib.Tactic

set_option maxRecDepth 16384

noncomputable section

namespace Cert.KernelIdeal.Tail

open Idealize.ShloMosaic Idealize.ShloMosaic.TcCoe Idealize.SL.Sem Idealize.ShloMosaic.StableHlo Cert.KernelIdeal Cert.KernelIdeal.Gen

/-- Whatever the four arrays hold after the region, the operations after it leave in the result buffer the
    specification's tail of their first hundred rows and their single entries. -/
theorem tail_after (W : Valuation τ sig (Elt Ideal)) :
    StableHlo.after (List.flatten [hostOps1 (F := Ideal), hostOps1_1, hostOps1_2, hostOps1_3, hostOps1_4]) W (Proc.devRef .tc main_v25)
      = Cert.Hist.tail
          (shapeCast S100 (extractStridedSlice S100x1 ![0, 0] (W (Proc.devRef .tc main_v3_0)) slices_S128x1_S100x1_0_0) shapeCasts_S100x1_S100)
          (shapeCast S100 (extractStridedSlice S100x1 ![0, 0] (W (Proc.devRef .tc main_v3_1)) slices_S128x1_S100x1_0_0) shapeCasts_S100x1_S100)
          (shapeCast S_ (W (Proc.devRef .tc main_v3_2)) shapeCasts_S1x1_S_)
          (shapeCast S_ (W (Proc.devRef .tc main_v3_3)) shapeCasts_S1x1_S_) := by
  simp only [hostOps1, hostOps1_1, hostOps1_2, hostOps1_3, hostOps1_4, List.flatten_cons, List.flatten_nil, List.append_nil,
    List.cons_append, List.nil_append]
  after_results_simp
  rfl

end Cert.KernelIdeal.Tail

end
-- ==== Proof.KRun.lean ====
/-
  The idealized kernel program's run, read: its result buffer ends at the specification's answer of the flattened
  inputs, and its arguments end unchanged.

  After the region the four output arrays hold the accumulators' last values; a histogram column's first hundred rows
  are the specification's histogram (the sum over the 128 tiles of each tile's share), a count cell is the specification's
  count; and the host operations after the region are the specification's tail of those four.
-/
import proofs.«122967_j32444182954404_1_alg».proof.Proof.KValue
import proofs.«122967_j32444182954404_1_alg».proof.Proof.KTail

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Run

open Cert.KernelIdeal Cert.KernelIdeal.Gen Cert.KernelIdeal.GenP Cert.KernelIdeal.Acc Cert.KernelIdeal.Blocks Cert.KernelIdeal.Tiles Cert.Hist

variable (m : (ℓ : Loc nD τ sig) → Buf (Elt Ideal) ℓ) (ρ : Dev nD → PrngReg)

/-- The first hundred rows of the zero-label column after the last point are the specification's histogram. -/
theorem hp_rows (c : Dev nD) :
    shapeCast S100 (extractStridedSlice S100x1 ![0, 0] (last m c).1 slices_S128x1_S100x1_0_0) shapeCasts_S100x1_S100
      = fun i => hist (arr0 m c) (arr1 m c) (lab m c) isPos (i 0) := by
  funext i
  obtain ⟨b, rfl⟩ : ∃ b : Fin 100, i = ix1 b := ⟨i 0, eq_ix1 i⟩
  rw [sliceCol_apply, last_hp, hist_total]

/-- Likewise the nonzero-label column. -/
theorem hn_rows (c : Dev nD) :
    shapeCast S100 (extractStridedSlice S100x1 ![0, 0] (last m c).2.1 slices_S128x1_S100x1_0_0) shapeCasts_S100x1_S100
      = fun i => hist (arr0 m c) (arr1 m c) (lab m c) isNeg (i 0) := by
  funext i
  obtain ⟨b, rfl⟩ : ∃ b : Fin 100, i = ix1 b := ⟨i 0, eq_ix1 i⟩
  rw [sliceCol_apply, last_hn, hist_total]

/-- The zero-label count cell is the specification's count. -/
theorem pc_cell (c : Dev nD) : shapeCast S_ (last m c).2.2.1 shapeCasts_S1x1_S_ = fun _ => count (lab m c) isPos := by
  funext j
  rw [num_apply, last_pc, count_total]

/-- Likewise the nonzero-label count. -/
theorem nc_cell (c : Dev nD) : shapeCast S_ (last m c).2.2.2 shapeCasts_S1x1_S_ = fun _ => count (lab m c) isNeg := by
  funext j
  rw [num_apply, last_nc, count_total]

/-- What the host operations after the region leave in the result buffer. -/
theorem result_eq (c : Dev nD) :
    Pipeline.afterTail₀ cfgs (dats m) 0 (V0 m) [hostOps1, hostOps1_1, hostOps1_2, hostOps1_3, hostOps1_4] c main_v25
      = Cert.Hist.result (arr0 m c) (arr1 m c) (lab m c) := by
  unfold Pipeline.afterTail₀
  rw [Cert.KernelIdeal.Tail.tail_after]
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  have e5 := (Pipeline.withArrays_arr spec0 launch0.win.arr_inj c (V0 m c) (fun w => (dats m 0 c).arrAt w cfg0.N) 5).trans (final5 m c)
  have e6 := (Pipeline.withArrays_arr spec0 launch0.win.arr_inj c (V0 m c) (fun w => (dats m 0 c).arrAt w cfg0.N) 6).trans (final6 m c)
  show Cert.Hist.tail
      (shapeCast S100 (extractStridedSlice S100x1 ![0, 0] (Pipeline.withArrays spec0 c (V0 m c) (fun w => (dats m 0 c).arrAt w cfg0.N) (Proc.devRef .tc (Pipeline.arrRef spec0 3))) slices_S128x1_S100x1_0_0) shapeCasts_S100x1_S100)
      (shapeCast S100 (extractStridedSlice S100x1 ![0, 0] (Pipeline.withArrays spec0 c (V0 m c) (fun w => (dats m 0 c).arrAt w cfg0.N) (Proc.devRef .tc (Pipeline.arrRef spec0 4))) slices_S128x1_S100x1_0_0) shapeCasts_S100x1_S100)
      (shapeCast S_ (Pipeline.withArrays spec0 c (V0 m c) (fun w => (dats m 0 c).arrAt w cfg0.N) (Proc.devRef .tc (Pipeline.arrRef spec0 5))) shapeCasts_S1x1_S_)
      (shapeCast S_ (Pipeline.withArrays spec0 c (V0 m c) (fun w => (dats m 0 c).arrAt w cfg0.N) (Proc.devRef .tc (Pipeline.arrRef spec0 6))) shapeCasts_S1x1_S_) = _
  rw [e3, e4, e5, e6, hp_rows, hn_rows, pc_cell, nc_cell]
  rfl

/-- The run: the result buffer at the specification's answer of the reshaped arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v25)
        = Cert.Hist.result (shapeCast S32x1048576 (m ((c.tc : Thread nD τ).loc main_arg0)) shapeCasts_S1x32x1024x1024_S32x1048576)
            (shapeCast S32x1048576 (m ((c.tc : Thread nD τ).loc main_arg1)) shapeCasts_S1x32x1024x1024_S32x1048576)
            (fun p => shapeCast S1x1048576 (m ((c.tc : Thread nD τ).loc main_arg2)) shapeCasts_S1x1024x1024_S1x1048576 (ix2 (0 : Fin 1) p))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v25 (Pipeline.mem_restRefs_of main_v25 (by decide) (by decide))).trans
        ((result_eq m c).trans (by rw [← arr0_eq, ← arr1_eq, ← arr2_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Run

end
-- ==== Proof.RefDist.lean ====
/-
  The reference's distances. The reference flattens each feature array to channel × pixel, transposes, subtracts,
  shifts, squares, sums over the 32 channels and takes the root: at pixel `p` that is the specification's distance of
  the pixel's two columns of the flattened arrays.
-/
import proofs.«122967_j32444182954404_1_alg».proof.Proof.RefRead
import proofs.«122967_j32444182954404_1_alg».proof.Proof.Spec

noncomputable section

open Idealize.ShloMosaic Idealize.ShloMosaic.ValueIdx

namespace Cert.ReferenceIdeal.RefValue

open Cert.ReferenceIdeal Cert.ReferenceIdeal.Gen Cert.ReferenceIdeal.ReadP Cert.Hist

/-- A feature array flattened to channel × pixel. -/
abbrev flat (x : FVec Ideal S1x32x1024x1024 .f32) : FVec Ideal S32x1048576 .f32 :=
  shapeCast S32x1048576 x shapeCasts_S1x32x1024x1024_S32x1048576

/-- The label image flattened to one word per pixel. -/
abbrev labels (gt : IVec S1x1024x1024 32) : Fin NPix → BitVec 32 :=
  fun p => shapeCast S1048576 gt shapeCasts_S1x1024x1024_S1048576 (ix1 p)

/-- The transposed first feature array at (pixel, channel) is the flattened one at (channel, pixel). -/
theorem chan_idx0 (p : Fin NPix) (k : Fin 32) : idx_main_v1 (idx_main_v8 (ix1 p) k) = ix2 k p :=
  funext fun a => match a with | ⟨0, _⟩ => rfl | ⟨1, _⟩ => rfl

/-- Likewise the second. -/
theorem chan_idx1 (p : Fin NPix) (k : Fin 32) : idx_main_v3 (idx_main_v8 (ix1 p) k) = ix2 k p :=
  funext fun a => match a with | ⟨0, _⟩ => rfl | ⟨1, _⟩ => rfl

/-- THE DISTANCES: the reference's root of the channel sum at pixel `p` is the distance of `p`'s two columns. -/
theorem dist_at (x0 x1 : FVec Ideal S1x32x1024x1024 .f32) (p : Fin NPix) :
    val_main_v9 (F := Ideal) x0 x1 (ix1 p) = dist (flat x0) (flat x1) p := by
  rw [val_main_v9_apply, val_main_v8_apply]
  simp only [val_main_v7_apply, val_main_v6_apply, val_main_v4_apply, val_main_v5_apply, val_main_cst_apply,
    val_main_v1_apply, val_main_v3_apply, val_main_cst_0_apply, chan_idx0, chan_idx1]
  rw [Ideal.ofBits_def, Ideal.ofBits_zero_f32, zero_add]
  rfl

end Cert.ReferenceIdeal.RefValue

end
-- ==== Proof.RefMasks.lean ====
/-
  The reference's per-pixel words. At pixel `p`: the two label tests are the specification's (the complement of a bit
  is its exclusive-or with one); the range test is the specification's of the pixel's distance; the clipped floor of a
  hundred times the distance is the specification's bin, and the normalisation of negative indices leaves it alone
  because a bin is never negative; the two converted masks are the specification's weights, the words of one and of
  zero being the reals one and zero.
-/
import proofs.«122967_j32444182954404_1_alg».proof.Proof.RefDist
import proofs.«122967_j32444182954404_1_alg».proof.Proof.Words
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.ReadP Cert.Hist

/-- The flattened labels at pixel `p`. -/
theorem label_at (gt : IVec S1x1024x1024 32) (p : Fin NPix) : val_main_v10 (F := Ideal) gt (ix1 p) = labels gt p := rfl

/-- The first label test at pixel `p`: the label is zero. -/
theorem pos_at (gt : IVec S1x1024x1024 32) (p : Fin NPix) :
    val_main_v12 (F := Ideal) gt (ix1 p) = isPos (labels gt p) := by
  rw [val_main_v12_apply, val_main_v11_apply, val_main_c_apply, label_at]
  rfl

/-- The second label test at pixel `p`: the label is not zero. -/
theorem neg_at (gt : IVec S1x1024x1024 32) (p : Fin NPix) :
    val_main_v13 (F := Ideal) gt (ix1 p) = isNeg (labels gt p) := by
  rw [val_main_v13_apply, pos_at, noti_bit]
  rfl

section Pixel
variable (x0 x1 : FVec Ideal S1x32x1024x1024 .f32) (gt : IVec S1x1024x1024 32) (p : Fin NPix)

/-- The range test feeding the first histogram, at pixel `p`. -/
theorem inRange_at : val_main_v24 (F := Ideal) x0 x1 (ix1 p) = inRange (dist (flat x0) (flat x1) p) := by
  rw [val_main_v24_apply, val_main_v21_apply, val_main_v23_apply, val_main_v20_apply, val_main_v22_apply,
    val_main_cst_3_apply, val_main_cst_4_apply, dist_at]
  rfl

/-- The range test feeding the second histogram, at pixel `p`. -/
theorem inRange_at' : val_main_v46 (F := Ideal) x0 x1 (ix1 p) = inRange (dist (flat x0) (flat x1) p) := by
  rw [val_main_v46_apply, val_main_v43_apply, val_main_v45_apply, val_main_v42_apply, val_main_v44_apply,
    val_main_cst_11_apply, val_main_cst_12_apply, dist_at]
  rfl

/-- The clipped floor feeding the first histogram, at pixel `p`: the bin of the distance. -/
theorem clip_at : val_main_v29 (F := Ideal) x0 x1 (ix1 p) = binOf (dist (flat x0) (flat x1) p) := by
  rw [val_main_v29_apply, val_main_call0_v4_apply, val_main_call0_v3_apply, val_main_c_7_apply, val_main_call0_v2_apply,
    val_main_call0_v1_apply, val_main_call0_v0_apply, val_main_c_6_apply, val_main_v28_apply, val_main_v27_apply,
    val_main_v26_apply, val_main_v25_apply, val_main_cst_5_apply, dist_at]
  rfl

/-- The clipped floor feeding the second histogram, at pixel `p`. -/
theorem clip_at' : val_main_v51 (F := Ideal) x0 x1 (ix1 p) = binOf (dist (flat x0) (flat x1) p) := by
  rw [val_main_v51_apply, val_main_call1_v4_apply, val_main_call1_v3_apply, val_main_c_15_apply, val_main_call1_v2_apply,
    val_main_call1_v1_apply, val_main_call1_v0_apply, val_main_c_14_apply, val_main_v50_apply, val_main_v49_apply,
    val_main_v48_apply, val_main_v47_apply, val_main_cst_13_apply, dist_at]
  rfl

/-- A bin is never negative, so adding a hundred to the negative indices changes nothing: the first scatter's index. -/
theorem bin_at : val_main_v37 (F := Ideal) x0 x1 (ix1 p) = binOf (dist (flat x0) (flat x1) p) := by
  rw [val_main_v37_apply, val_main_v34_apply, val_main_v33_apply, val_main_c_9_apply, clip_at, binOf_not_neg]
  exact select_zero _ _

/-- The second scatter's index. -/
theorem bin_at' : val_main_v59 (F := Ideal) x0 x1 (ix1 p) = binOf (dist (flat x0) (flat x1) p) := by
  rw [val_main_v59_apply, val_main_v56_apply, val_main_v55_apply, val_main_c_17_apply, clip_at', binOf_not_neg]
  exact select_zero _ _

end Pixel

/-- A weight is the real one when the label bit and the range bit are both set, else the real zero. -/
theorem weight_eq (sel : BitVec 1) (d : Ideal .f32) :
    weight sel d = if IntOp.andi sel (inRange d) = 1#1 then (1 : EReal) else 0 := by
  unfold weight
  by_cases h : IntOp.andi sel (inRange d) = 1#1
  · rw [h, if_pos rfl, select_one, Ideal.ofBits_def, ofBits_one]
  · rw [if_neg h, eq_zero_of_ne_one h, select_zero, Ideal.ofBits_def, Ideal.ofBits_zero_f32]

section Pixel
variable (x0 x1 : FVec Ideal S1x32x1024x1024 .f32) (gt : IVec S1x1024x1024 32) (p : Fin NPix)

/-- The first scatter's update at pixel `p`: the weight of a zero label. -/
theorem wpos_at : val_main_v31 (F := Ideal) x0 x1 gt (ix1 p) = weight (isPos (labels gt p)) (dist (flat x0) (flat x1) p) := by
  rw [val_main_v31_apply, val_main_v30_apply, pos_at, inRange_at, uitofp_bit, weight_eq]

/-- The second scatter's update at pixel `p`: the weight of a nonzero label. -/
theorem wneg_at : val_main_v53 (F := Ideal) x0 x1 gt (ix1 p) = weight (isNeg (labels gt p)) (dist (flat x0) (flat x1) p) := by
  rw [val_main_v53_apply, val_main_v52_apply, neg_at, inRange_at', uitofp_bit, weight_eq]

end Pixel

end Cert.ReferenceIdeal.RefValue

end
-- ==== Proof.RefLemmas.lean ====
/-
  The reference's three non-pointwise operations read at an index, over any vector length.

  A scatter-add of one number per update into a vector of bins: bin `b` receives its old value plus the sum of the
  updates whose start index, read as a signed integer, is `b`. A word-sum of widened bits over a whole vector,
  converted to a real: the number of set bits. A float sum over the second axis of a two-axis array: the initial value
  plus the sum over that axis's coordinates.
-/
import proofs.«122967_j32444182954404_1_alg».proof.Proof.Spec
import proofs.«122967_j32444182954404_1_alg».proof.Proof.Words
import Idealize.ShloMosaic.PureOps.Reduce
import Idealize.ShloMosaic.PureOps.Ideal.Laws
import Idealize.ShloMosaic.Lib.StableHlo.Predicate
import Idealize.ShloMosaic.Lib.ValueIdx

noncomputable section

namespace Cert.Hist

open Idealize.ShloMosaic Idealize.ShloMosaic.ValueIdx

/-- The indices of a vector of length `n` are the positions below `n`. -/
def vecIdx (n : Nat) : Fin n ≃ (⟨1, ![n]⟩ : Shape).Idx where
  toFun p := ix1 p
  invFun j := j 0
  left_inv _ := rfl
  right_inv j := (eq_ix1 j).symm

/-- A sum over a vector's indices is the sum over the positions. -/
theorem sum_vecIdx {M : Type} [AddCommMonoid M] {n : Nat} (f : (⟨1, ![n]⟩ : Shape).Idx → M) :
    ∑ j, f j = ∑ p : Fin n, f (ix1 p) :=
  ((vecIdx n).sum_comp f).symm

/-! ## The scatter into bins -/

/-- The dimension numbers of a scatter of `n` single numbers into `K` bins: no window axis, the bins' one axis
    inserted and addressed by the one component of each start index. -/
abbrev binDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

section Bins
variable {K n w : Nat} (wf : ScatterDims.WF ⟨1, ![K]⟩ ⟨2, ![n, 1]⟩ ⟨1, ![n]⟩ [] [0] [0] 1)

/-- Update `j` starts at the word its own row of the index array holds, read signed. -/
theorem binDims_start (j : (⟨1, ![n]⟩ : Shape).Idx) (idx : IVec ⟨2, ![n, 1]⟩ w) (a : Fin 1) :
    (binDims K n wf).start j idx a = (idx (ix2 (j 0) 0)).toInt := by
  obtain rfl : a = 0 := Subsingleton.elim _ _
  unfold ScatterDims.start
  rw [dif_pos (show (0 : Fin 1) ∈ (binDims K n wf).scatterDimsToOperandDims from List.mem_singleton.mpr rfl)]
  congr 2
  funext b
  refine Fin.ext ?_
  match b with
  | ⟨0, _⟩ => rfl
  | ⟨1, _⟩ => rfl

/-- There is no window: every update is one number. -/
theorem binDims_window (j : (⟨1, ![n]⟩ : Shape).Idx) (a : Fin 1) : (binDims K n wf).window j a = 0 := by
  obtain rfl : a = 0 := Subsingleton.elim _ _
  unfold ScatterDims.window
  have hno : (0 : Fin 1) ∉ (binDims K n wf).sKept := by
    show (0 : Fin 1) ∉ ([] : List (Fin 1))
    exact List.not_mem_nil
  exact dif_neg hno

/-- Update `j` lands on bin `b` exactly when its start word, read signed, is `b`. -/
theorem binDims_lands (j : (⟨1, ![n]⟩ : Shape).Idx) (idx : IVec ⟨2, ![n, 1]⟩ w) (b : Fin K) :
    (binDims K n wf).resultIdx? j idx = some (ix1 b) ↔ (idx (ix2 (j 0) 0)).toInt = (b.val : Int) := by
  unfold ScatterDims.resultIdx?
  simp only [binDims_start, binDims_window, Int.natCast_zero, add_zero]
  constructor
  · intro h
    split at h
    · next hin =>
      have h0 := (hin 0).1
      have hv : ((idx (ix2 (j 0) 0)).toInt).toNat = b.val :=
        congrArg (fun i : (⟨1, ![K]⟩ : Shape).Idx => (i 0).val) (Option.some.inj h)
      omega
    · cases h
  · intro h
    have hb := b.isLt
    rw [dif_pos (fun a => by
      obtain rfl : a = 0 := Subsingleton.elim _ _
      show 0 ≤ _ ∧ _ < (K : Int)
      omega)]
    congr 1
    funext a
    obtain rfl : a = 0 := Subsingleton.elim _ _
    refine Fin.ext ?_
    show ((idx (ix2 (j 0) 0)).toInt).toNat = b.val
    omega

/-- THE SCATTER READ AT BIN `b`: the bin's old value plus the sum of the updates whose start word is `b`. -/
theorem scatter_bin_apply (x : (⟨1, ![K]⟩ : Shape).Idx → EReal) (idx : IVec ⟨2, ![n, 1]⟩ w)
    (upd : (⟨1, ![n]⟩ : Shape).Idx → EReal) (b : Fin K) :
    Ideal.hostScatterAdd (binDims K n wf) x idx upd (ix1 b)
      = x (ix1 b) + ∑ p : Fin n, if (idx (ix2 p 0)).toInt = (b.val : Int) then upd (ix1 p) else 0 := by
  unfold Ideal.hostScatterAdd
  congr 1
  rw [Finset.sum_filter, sum_vecIdx]
  refine Finset.sum_congr rfl fun p _ => ?_
  simp only [binDims_lands]
  rfl

/-- The same for the program's operation, whose value at the ideal values is that sum. -/
theorem scatterAdd_bin_apply (x : FVec Ideal ⟨1, ![K]⟩ .f32) (idx : IVec ⟨2, ![n, 1]⟩ w)
    (upd : FVec Ideal ⟨1, ![n]⟩ .f32) (b : Fin K) :
    Host.scatterAdd (binDims K n wf) x idx upd (ix1 b)
      = x (ix1 b) + ∑ p : Fin n, if (idx (ix2 p 0)).toInt = (b.val : Int) then upd (ix1 p) else 0 :=
  scatter_bin_apply wf x idx upd b

end Bins

/-! ## The count of set bits -/

/-- THE COUNT: the word-sum of a vector of widened bits from zero, converted to a real, is the number of set bits
    (fewer than 2^31 of them, so the sum neither wraps nor reads negative). -/
theorem count_apply {n : Nat} (hn : n < 2 ^ 31) (mask : IVec ⟨1, ![n]⟩ 1) (hw : 1 < 32)
    (h : (⟨1, ![n]⟩ : Shape).ReducesTo [0] ⟨0, ![]⟩) {u : Shape} (hu : 0 < u.numel) (j : (⟨0, ![]⟩ : Shape).Idx) :
    (FloatOps.sitofp (F := Ideal) .f32 (Host.reduce IntOp.addi (extui 32 mask hw) (constantI u 32 0#32) h hu j) : Ideal .f32)
      = ∑ p : Fin n, if mask (ix1 p) = 1#1 then (1 : EReal) else 0 := by
  classical
  rw [Host.reduce_eq_fold]
  have hall : (Finset.univ.filter fun i : (⟨1, ![n]⟩ : Shape).Idx => h.drop i = j) = Finset.univ :=
    Finset.filter_true_of_mem fun i _ => funext fun a => a.elim0
  rw [hall]
  show (FloatOps.sitofp (F := Ideal) .f32 (Finset.univ.fold IntOp.addi 0#32 fun i => (mask i).setWidth 32) : Ideal .f32) = _
  rw [sitofp_fold_count _ _ (by
    rw [Finset.card_univ, Fintype.card_congr (vecIdx n).symm, Fintype.card_fin]; exact hn)]
  exact sum_vecIdx _

/-! ## The sum over the channels -/

/-- THE CHANNEL SUM: a float sum over the second axis of an `n × m` array, at row `p`, is the initial value plus the
    sum over the `m` columns. -/
theorem rowsum_apply {n m : Nat} (h' : (⟨2, ![n, m]⟩ : Shape).ReducesTo [1] ⟨1, ![n]⟩)
    (h : (⟨2, ![n, m]⟩ : Shape).Reduces [1] ⟨1, ![n]⟩) (x : (⟨2, ![n, m]⟩ : Shape).Idx → EReal) (init : EReal) (p : Fin n) :
    Ideal.hostReduceAdd h' x init (ix1 p) = init + ∑ c : Fin m, x (ix2 p c) := by
  rw [Ideal.hostReduceAdd_single h' h]
  congr 1
  refine Finset.sum_congr rfl fun c _ => congrArg x ?_
  funext a
  refine Fin.ext ?_
  rw [Shape.Reduces.lift_val]
  match a with
  | ⟨0, _⟩ => rfl
  | ⟨1, _⟩ => rfl

end Cert.Hist

end
-- ==== Proof.RefHist.lean ====
/-
  The reference's two histograms. Each is a scatter-add, from a vector of zeros, of one update per pixel at the pixel's
  bin: bin `b` ends at the sum of the updates of the pixels whose bin word is `b`, which is the specification's
  histogram. A bin word is at most 99, so reading it as a signed integer gives `b` exactly when the word is `b`.
-/
import proofs.«122967_j32444182954404_1_alg».proof.Proof.RefMasks
import proofs.«122967_j32444182954404_1_alg».proof.Proof.RefLemmas

noncomputable section

open Idealize.ShloMosaic Idealize.ShloMosaic.ValueIdx

namespace Cert.ReferenceIdeal.RefValue

open Cert.ReferenceIdeal Cert.ReferenceIdeal.Gen Cert.ReferenceIdeal.ReadP Cert.Hist

/-- The program's scatter dimension numbers are those of a scatter of single numbers into bins. -/
theorem scatterDims_eq : scatter_S100_S1048576x1_S1048576_n_0_0_1
    = binDims 100 1048576 scatter_S100_S1048576x1_S1048576_n_0_0_1_wf := rfl

/-- A bin word, read as a signed integer, is `b` exactly when it is the word of `b`. -/
theorem bin_word_iff (d : Ideal .f32) (b : Fin 100) :
    (binOf d).toInt = (b.val : Int) ↔ binOf d = BitVec.ofNat 32 b.val := by
  have hle := binOf_toNat_le d
  have hb := b.isLt
  rw [StableHlo.Predicate.toInt_eq_toNat_of_lt (by omega)]
  constructor
  · intro h
    apply BitVec.eq_of_toNat_eq
    rw [BitVec.toNat_ofNat, Nat.mod_eq_of_lt (by omega)]
    exact_mod_cast h
  · intro h
    rw [h, BitVec.toNat_ofNat, Nat.mod_eq_of_lt (by omega)]

/-- The index array's row of pixel `p` is the pixel's own place in the vector of bins. -/
theorem row_idx (p : Fin NPix) : idx_main_v38 (ix2 p 0) = ix1 p :=
  funext fun a => match a with | ⟨0, _⟩ => rfl

/-- Likewise in the second scatter. -/
theorem row_idx' (p : Fin NPix) : idx_main_v60 (ix2 p 0) = ix1 p :=
  funext fun a => match a with | ⟨0, _⟩ => rfl

section Hist
variable (x0 x1 : FVec Ideal S1x32x1024x1024 .f32) (gt : IVec S1x1024x1024 32)

/-- The first scatter read at bin `b`: the zero it starts from plus the updates of the pixels whose index word is `b`. -/
theorem hist_pos_at_scatter (b : Fin 100) :
    val_main_v39 (F := Ideal) x0 x1 gt (ix1 b)
      = val_main_v32 (F := Ideal) (ix1 b) + ∑ p : Fin NPix,
          if (val_main_v38 (F := Ideal) x0 x1 (ix2 p 0)).toInt = (b.val : Int) then val_main_v31 (F := Ideal) x0 x1 gt (ix1 p) else 0 := by
  unfold val_main_v39
  generalize val_main_v32 (F := Ideal) = y0
  generalize val_main_v38 (F := Ideal) x0 x1 = y1
  generalize val_main_v31 (F := Ideal) x0 x1 gt = y2
  exact scatterAdd_bin_apply _ y0 y1 y2 b

/-- THE FIRST HISTOGRAM: bin `b` of the scatter of the zero-label weights. -/
theorem hist_pos_at (b : Fin 100) :
    val_main_v39 (F := Ideal) x0 x1 gt (ix1 b) = hist (flat x0) (flat x1) (labels gt) isPos b := by
  rw [hist_pos_at_scatter, val_main_v32_apply, val_main_cst_8_apply, Ideal.ofBits_def, Ideal.ofBits_zero_f32, zero_add]
  unfold Cert.Hist.hist
  refine Finset.sum_congr rfl fun p _ => ?_
  rw [val_main_v38_apply, row_idx, bin_at, wpos_at]
  exact if_congr (bin_word_iff _ b) rfl rfl

/-- The second scatter read at bin `b`. -/
theorem hist_neg_at_scatter (b : Fin 100) :
    val_main_v61 (F := Ideal) x0 x1 gt (ix1 b)
      = val_main_v54 (F := Ideal) (ix1 b) + ∑ p : Fin NPix,
          if (val_main_v60 (F := Ideal) x0 x1 (ix2 p 0)).toInt = (b.val : Int) then val_main_v53 (F := Ideal) x0 x1 gt (ix1 p) else 0 := by
  unfold val_main_v61
  generalize val_main_v54 (F := Ideal) = y0
  generalize val_main_v60 (F := Ideal) x0 x1 = y1
  generalize val_main_v53 (F := Ideal) x0 x1 gt = y2
  exact scatterAdd_bin_apply _ y0 y1 y2 b

/-- THE SECOND HISTOGRAM: bin `b` of the scatter of the nonzero-label weights. -/
theorem hist_neg_at (b : Fin 100) :
    val_main_v61 (F := Ideal) x0 x1 gt (ix1 b) = hist (flat x0) (flat x1) (labels gt) isNeg b := by
  rw [hist_neg_at_scatter, val_main_v54_apply, val_main_cst_16_apply, Ideal.ofBits_def, Ideal.ofBits_zero_f32, zero_add]
  unfold Cert.Hist.hist
  refine Finset.sum_congr rfl fun p _ => ?_
  rw [val_main_v60_apply, row_idx', bin_at', wneg_at]
  exact if_congr (bin_word_iff _ b) rfl rfl

end Hist

end Cert.ReferenceIdeal.RefValue

end
-- ==== Proof.RefCount.lean ====
/-
  The reference's two counts. Each is the word-sum over all 2^20 pixels of a label test's bit widened to a word,
  converted to a real: 2^20 is below 2^31, so the sum is the number of pixels the test selects — the specification's
  count.
-/
import proofs.«122967_j32444182954404_1_alg».proof.Proof.RefMasks
import proofs.«122967_j32444182954404_1_alg».proof.Proof.RefLemmas

noncomputable section

open Idealize.ShloMosaic Idealize.ShloMosaic.ValueIdx

namespace Cert.ReferenceIdeal.RefValue

open Cert.ReferenceIdeal Cert.ReferenceIdeal.Gen Cert.ReferenceIdeal.ReadP Cert.Hist

section Count
variable (gt : IVec S1x1024x1024 32) (i : S_.Idx)

/-- THE FIRST COUNT: how many labels are zero. -/
theorem count_pos_at : val_main_v16 (F := Ideal) gt i = count (labels gt) isPos := by
  rw [val_main_v16_apply]
  unfold val_main_v15 val_main_v14 val_main_c_1
  rw [count_apply (n := 1048576) (by norm_num)]
  unfold Cert.Hist.count
  exact Finset.sum_congr rfl fun p _ => by rw [pos_at]

/-- THE SECOND COUNT: how many labels are not zero. -/
theorem count_neg_at : val_main_v19 (F := Ideal) gt i = count (labels gt) isNeg := by
  rw [val_main_v19_apply]
  unfold val_main_v18 val_main_v17 val_main_c_2
  rw [count_apply (n := 1048576) (by norm_num)]
  unfold Cert.Hist.count
  exact Finset.sum_congr rfl fun p _ => by rw [neg_at]

end Count

end Cert.ReferenceIdeal.RefValue

end
-- ==== Proof.RefValue.lean ====
/-
  The reference program's result, read at the ideal values, is the specification's answer of the flattened inputs.

  The program's last thirty operations are the specification's tail applied to the two scattered histograms and the
  two converted counts; those four stages are the specification's histograms and counts of the flattened inputs.
-/
import proofs.«122967_j32444182954404_1_alg».proof.Defs
import proofs.«122967_j32444182954404_1_alg».proof.Proof.Gen.ReferenceIdeal
import proofs.«122967_j32444182954404_1_alg».proof.Proof.RefRun
import proofs.«122967_j32444182954404_1_alg».proof.Proof.RefRead
import proofs.«122967_j32444182954404_1_alg».proof.Proof.Spec
import proofs.«122967_j32444182954404_1_alg».proof.Proof.RefHist
import proofs.«122967_j32444182954404_1_alg».proof.Proof.RefCount

noncomputable section

open Idealize.ShloMosaic Idealize.ShloMosaic.TcCoe Idealize.SL.Sem

namespace Cert.ReferenceIdeal.RefValue

open Cert.ReferenceIdeal Cert.ReferenceIdeal.Gen Cert.ReferenceIdeal.ReadP Cert.Hist Idealize.ShloMosaic.ValueIdx

/-- From the histogram and count stages on, the program is the specification's tail. -/
theorem tail_eq (x0 x1 : FVec Ideal S1x32x1024x1024 .f32) (gt : IVec S1x1024x1024 32) :
    val_main_v75 (F := Ideal) x0 x1 gt
      = tail (val_main_v39 (F := Ideal) x0 x1 gt) (val_main_v61 (F := Ideal) x0 x1 gt)
          (val_main_v16 (F := Ideal) gt) (val_main_v19 (F := Ideal) gt) := rfl

/-- the reference run's result term is the specification's answer of the flattened inputs -/
theorem result_eq (x0 x1 : FVec Ideal S1x32x1024x1024 .f32) (gt : IVec S1x1024x1024 32) :
    val_main_v75 (F := Ideal) x0 x1 gt
      = Cert.Hist.result (shapeCast S32x1048576 x0 shapeCasts_S1x32x1024x1024_S32x1048576) (shapeCast S32x1048576 x1 shapeCasts_S1x32x1024x1024_S32x1048576)
          (fun p => shapeCast S1048576 gt shapeCasts_S1x1024x1024_S1048576 (ValueIdx.ix1 p)) := by
  have hp : val_main_v39 (F := Ideal) x0 x1 gt = fun i => hist (flat x0) (flat x1) (labels gt) isPos (i 0) := by
    funext i
    obtain ⟨b, rfl⟩ : ∃ b, i = ix1 b := ⟨i 0, eq_ix1 i⟩
    exact hist_pos_at x0 x1 gt b
  have hn : val_main_v61 (F := Ideal) x0 x1 gt = fun i => hist (flat x0) (flat x1) (labels gt) isNeg (i 0) := by
    funext i
    obtain ⟨b, rfl⟩ : ∃ b, i = ix1 b := ⟨i 0, eq_ix1 i⟩
    exact hist_neg_at x0 x1 gt b
  have hcp : val_main_v16 (F := Ideal) gt = fun _ => count (labels gt) isPos := funext fun i => count_pos_at gt i
  have hcn : val_main_v19 (F := Ideal) gt = fun _ => count (labels gt) isNeg := funext fun i => count_neg_at gt i
  rw [tail_eq, hp, hn, hcp, hcn]
  rfl

/-- the run restated: result at the specification's answer, arguments unchanged -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75) = Cert.Hist.result (shapeCast S32x1048576 (m ((c.tc : Thread nD τ).loc main_arg0)) shapeCasts_S1x32x1024x1024_S32x1048576) (shapeCast S32x1048576 (m ((c.tc : Thread nD τ).loc main_arg1)) shapeCasts_S1x32x1024x1024_S32x1048576) (fun p => shapeCast S1048576 (m ((c.tc : Thread nD τ).loc main_arg2)) shapeCasts_S1x1024x1024_S1048576 (ValueIdx.ix1 p))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h c).1.trans ((val_main_v75_eq m c).trans (result_eq _ _ _)), (h c).2⟩)
    (Cert.ReferenceIdeal.ValueP.run (F := Ideal) m ρ)

end Cert.ReferenceIdeal.RefValue

end
-- ==== Proof.lean ====
/-
  The certificate's claims for the masked-histogram divergence kernel.

  Both programs compute, from two 32-channel feature images and a label image of 1024 × 1024 pixels: each pixel's
  distance (the Euclidean norm of the channelwise difference shifted by a small literal); two hundred-bin histograms of
  the distances in [0, 1], one over the pixels labelled zero and one over the others; the two label counts; and from the
  two normalised histograms one plus the mean of q · (log q − r) over the bins where q > 0.

  The kernel walks the image in 128 tiles of 8192 pixels, adding each tile's one-hot lane sums to four accumulators that
  it clears at the first tile; the reference scatters every pixel's weight into its bin and counts labels with an integer
  sum. At the ideal values a sum of extended reals does not depend on its order or grouping, so both are the same sums over
  all pixels: the kernel's accumulator after the last tile is the sum over the tiles of the tile's share, which is the
  sum over the pixels; the reference's scatter at a bin is the sum of the weights of the pixels whose bin it is, and its
  integer count, far below the word's range, is the number of selected pixels. The operations after the sums are the same
  on both sides. No law used needs finite inputs, so the precondition is never opened.

  The three frames: the two kernel programs' frame certificates and the reference's run with its result dropped.
  The idealization rewrote no operation, so its claim is trivial.
-/
import proofs.«122967_j32444182954404_1_alg».proof.Defs
import proofs.«122967_j32444182954404_1_alg».proof.Proof.Gen.Kernel
import proofs.«122967_j32444182954404_1_alg».proof.Proof.Gen.KernelIdeal
import proofs.«122967_j32444182954404_1_alg».proof.Proof.Gen.ReferenceIdeal
import proofs.«122967_j32444182954404_1_alg».proof.Proof.Gen.Pre_finite_inputs
import proofs.«122967_j32444182954404_1_alg».proof.Proof.FrameKernel
import proofs.«122967_j32444182954404_1_alg».proof.Proof.KRun
import proofs.«122967_j32444182954404_1_alg».proof.Proof.RefValue
import proofs.«122967_j32444182954404_1_alg».proof.Proof.Layout
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From arguments that agree, both idealized programs end with the specification's answer of the flattened inputs: the
    two flattenings of the label image ([1, 2^20] on the kernel's side, [2^20] on the reference's) agree pixel by pixel. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact congrArg (Cert.Hist.result _ _) (funext fun p => (Cert.Hist.labels_flat _ _ _ p).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
